-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : IVec S4x2048x2048 32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i32⟩
  | .hbm, ⟨2, _⟩ => ⟨S1024x1024, .f32⟩
  | .hbm, ⟨3, _⟩ => ⟨S1024x1024, .f32⟩
  | .hbm, ⟨4, _⟩ => ⟨S4x2048x1024, .bf16⟩
  | .hbm, ⟨5, _⟩ => ⟨S1024x1024, .bf16⟩
  | .hbm, ⟨6, _⟩ => ⟨S1024x1024, .bf16⟩
  | .hbm, ⟨7, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .i32⟩
  | .local _ .vmem, ⟨5, _⟩ => ⟨S1x512x1024, .i32⟩
  | .local _ .vmem, ⟨6, _⟩ => ⟨S1024x1024, .bf16⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x1, .f32⟩
  | .local _ .vmem, ⟨12, _⟩ => ⟨S512x1, .f32⟩
  | .local _ .vmem, ⟨13, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v43 : BitVec 1 := Scalar.cmpi .eq arg2 c1_i32
  let v44 : BitVec 32 := Scalar.extui v43
  let c0_i32_27 : BitVec 32 := 0#32
  let v45 : BitVec 1 := Scalar.cmpi .ne v44 c0_i32_27
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .bf16 = 32 ∨ (Rect.block (s := S4x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x2048x1024.size a
  hwx0_1 : ∀ i : grid0.Coords, EltTy.bits .bf16 = 32 ∨ (Rect.block (s := S4x2048x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x2048.size a
  hwx0_2 : ∀ i : grid0.Coords, EltTy.bits .i32 = 32 ∨ (Rect.block (s := S4x2048x2048) S1x512x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .f32 = 32 ∨ (Rect.block (s := S4x2048x1024) S1x512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .i32⟩
  | .hbm, ⟨12, _⟩ => ⟨S4x2048x2048, .i32⟩
  | .hbm, ⟨13, _⟩ => ⟨S4x2048x2048, .i1⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x1024, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Shared.lean ====
/-
  The attention kernel's program around its one launch, and the facts about the launch's grid that the run of the
  kernel body is stated over. The program converts `x`, `Wqk` and `Wvc` to the narrow float format on the host and
  then launches the kernel on a grid of 32 points (4 batches × 4 query tiles × 2 key tiles, the key tile the
  fastest axis). Here: what the unscoped buffers hold when the launch begins (the host conversions applied; the
  four argument arrays untouched); each window's block of its array at a grid point; that an input window's buffer
  holds that block at every point; the two conditions the body branches on, which hold exactly at the even points
  (first key tile) and the odd points (second key tile); and that the result window is written only at the odd
  points.
-/
import proofs.«419303_j30477087932642_3_alg».proof.Proof.Gen.Kernel.Launch
import proofs.«419303_j30477087932642_3_alg».proof.Proof.Gen.Kernel.Skeleton
import proofs.«419303_j30477087932642_3_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s unscoped buffers hold when the launch begins: the launch memory after the three host conversions. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the host conversions followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host conversion writes an argument array: the launch finds each as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether or not the block was fetched there
    (where it was not, the block index has not moved), for any proof data whose array is the launch's and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first key tile": the body's first condition, from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last key tile": the body's second condition. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first-key-tile point the body stores nothing into the result window, -/
theorem idleAt0_5_A : ∀ t : Fin cfg0.N, cond0_0 (grid0.coords t) → ¬cond0_1 (grid0.coords t) → cfg0.idle 5 (grid0.coords t) = true := by decide +kernel
/-- and the window's block is not written back there. -/
theorem noFlush0_5_A : ∀ t : Fin cfg0.N, cond0_0 (grid0.coords t) → ¬cond0_1 (grid0.coords t) → (cfg0.win 5).flush t = false := by decide +kernel
/-- At a last-key-tile point the body stores the result block. -/
theorem liveAt0_5_B : ∀ t : Fin cfg0.N, ¬cond0_0 (grid0.coords t) → cond0_1 (grid0.coords t) → cfg0.idle 5 (grid0.coords t) = false := by decide +kernel

/-! ## The memrefs the body is called with -/

abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .f32 := win0_5.stage (cfg0.slots t 5)
abbrev hs0_5 (t : Fin cfg0.N) : (ms0_5 t).IsWhole := hstage0_5 ((cfg0.slots t 5).cast nbuf0_5)
/-- The four scratch buffers the kernel carries from point to point: the scaled query block, the running maximum,
    the running sum, the running weighted row sum. -/
abbrev scM0_0 : Memref sig .tc .vmem S512x1024 .bf16 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1024 .f32 := Memref.whole cc0_scratch3
abbrev VO0_5 : View sig .tc .vmem S1x512x1024 .f32 := (Memref.whole cc0_stg5_0 : Memref sig .tc .vmem S1x512x1024 .f32).view
abbrev VS0_0 : View sig .tc .vmem S512x1024 .bf16 := scM0_0.view
abbrev VS0_1 : View sig .tc .vmem S512x1 .f32 := scM0_1.view
abbrev VS0_2 : View sig .tc .vmem S512x1 .f32 := scM0_2.view
abbrev VS0_3 : View sig .tc .vmem S512x1024 .f32 := scM0_3.view

/-- What the launch hands the body besides the windows: the four scratch buffers, each at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.Kernel.Hand

end
-- ==== Proof.K.RunA.lean ====
/-
  The kernel body run from start to end at a grid point of the first key tile: the query rows, key rows, mask block and both weight matrices are read and left as they were; the result window is not touched; the four scratch buffers may hold anything on entry and end holding the scaled query block, the first tile's maximum, its sum of exponentials and its weighted row sum.
  The run is symbolic: it steps through the body's loads and stores on whole buffers, deciding its two branches by
  the case's hypotheses, and what each stored buffer ends with is recorded as the list of pieces the stores wrote,
  found by the run itself.
-/
import proofs.«419303_j30477087932642_3_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first-key-tile point: the pieces its stores leave in the four scratch buffers, with the proof
    that from whole buffers (inputs at their contents, the result window at `xi8`, the scratch at anything) it runs
    to a state with the inputs and the result window as they were and each scratch buffer holding its pieces. -/
noncomputable def kernelRun0_A (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1024 .i32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0_0 i) (hc1 : ¬cond0_1 i)
    (x3 : Vec F S1x512x1024 .bf16) (x4 : Vec F S1x1024x1024 .bf16) (x5 : Vec F S1x512x1024 .i32) (x6 x7 : Vec F S1024x1024 .bf16) :
    Σ' (LS0 : List (View.Piece (Elt F) S512x1024 .bf16)) (LS1 : List (View.Piece (Elt F) S512x1 .f32)) (LS2 : List (View.Piece (Elt F) S512x1 .f32)),
      { LS3 : List (View.Piece (Elt F) S512x1024 .f32) //
      ∀ (xi8 : Vec F S1x512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12) K } := by
  refine ⟨?_, ?_, ?_, ?_, fun xi8 E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, HS0⟩, ⟨%d10, %f10, -, HS1⟩, ⟨%d11, %f11, -, HS2⟩, ⟨%d12, %f12, -, HS3⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS0]; · iexists _; iexact HS0
    isplitl [HS1]; · iexists _; iexact HS1
    isplitl [HS2]; · iexists _; iexact HS2
    iexists _; iexact HS3

end Cert.Kernel.Hand

end
-- ==== Proof.K.RunB.lean ====
/-
  The kernel body run from start to end at a grid point of the last key tile: the inputs are read and left as they were; the scaled query block kept in scratch is read and left as it was; the running maximum, sum and weighted row sum enter at the contents the point before left and are updated; the result window may hold anything on entry and ends holding the result block.
  The run is symbolic: it steps through the body's loads and stores on whole buffers, deciding its two branches by
  the case's hypotheses, and what each stored buffer ends with is recorded as the list of pieces the stores wrote,
  found by the run itself.
-/
import proofs.«419303_j30477087932642_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a last-key-tile point: the pieces its stores leave in the result window and in the three running
    scratch buffers, with the proof that from whole buffers (inputs at their contents, the scratch at the carried
    contents `xs·`, the result window at anything) it runs to a state with the inputs and the query block as they
    were and each stored buffer holding its pieces. -/
noncomputable def kernelRun0_B (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1024 .i32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : cond0_1 i)
    (x3 : Vec F S1x512x1024 .bf16) (x4 : Vec F S1x1024x1024 .bf16) (x5 : Vec F S1x512x1024 .i32) (x6 x7 : Vec F S1024x1024 .bf16) (xs0 : Vec F S512x1024 .bf16) (xs1 xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)),
      { LS3 : List (View.Piece (Elt F) S512x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L5)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg3.eq_unread hf3; obtain rfl := harg4.eq_unread hf4; obtain rfl := harg5.eq_unread hf5
    obtain rfl := harg6.eq_unread hf6; obtain rfl := harg7.eq_unread hf7
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HS0]
    · iexists _; isplitr; · ipureintro; exact harg9.read_unread _
      iexact HS0
    isplitl [HS1]; · iexists _; iexact HS1
    isplitl [HS2]; · iexists _; iexact HS2
    iexists _; iexact HS3

end Cert.Kernel.Hand

end
-- ==== Proof.K.Data.lean ====
/-
  What the attention kernel leaves in its buffers, point by point over the 32 grid points, and the body's
  obligation at every point. At an even point (first key tile) the body resets the four scratch buffers from the
  point's blocks alone; at an odd point (last key tile) it updates the running maximum, sum and weighted row sum
  from what the point before left, keeps the scaled query block, and writes the result block. So the contents after
  point `n` are defined by recursion on `n` (`outsAt0`): the even case from the blocks, the odd case from the blocks
  and the contents after `n - 1`. Each buffer's contents after a case are the pieces the case's stores wrote, read
  back; the pieces tile the buffer, so nothing of what it held before shows through. The array `x` (converted)
  feeds two input windows, the query rows and the key rows: each window holds it at half the full share.
-/
import proofs.«419303_j30477087932642_3_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases at a point -/

theorem condA0 (t : Fin cfg0.N) (h0 : t.val % 2 = 0) : cond0_0 (grid0.coords t) := (hcond0_0 t).mpr h0
theorem condA1 (t : Fin cfg0.N) (h0 : t.val % 2 = 0) : ¬cond0_1 (grid0.coords t) := fun h => by
  have := (hcond0_1 t).mp h; omega
theorem condB0 (t : Fin cfg0.N) (h0 : ¬t.val % 2 = 0) : ¬cond0_0 (grid0.coords t) := fun h => h0 ((hcond0_0 t).mp h)
theorem condB1 (t : Fin cfg0.N) (h0 : ¬t.val % 2 = 0) : cond0_1 (grid0.coords t) := (hcond0_1 t).mpr (by omega)

/-- The first-key-tile run at point `t`, on the point's buffers and blocks. -/
abbrev runA (c : Dev nD) (t : Fin cfg0.N) (h0 : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (condA0 t h0) (condA1 t h0) (iblk m c 0 t) (iblk m c 1 t) (iblk m c 2 t) (iblk m c 3 t) (iblk m c 4 t)

/-- The last-key-tile run at point `t`, on the point's buffers and blocks and the carried scratch contents. -/
abbrev runB (c : Dev nD) (t : Fin cfg0.N) (h0 : ¬t.val % 2 = 0) (xs0 : Vec F S512x1024 .bf16) (xs1 xs2 : Vec F S512x1 .f32) (xs3 : Vec F S512x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (condB0 t h0) (condB1 t h0) (iblk m c 0 t) (iblk m c 1 t) (iblk m c 2 t) (iblk m c 3 t) (iblk m c 4 t) xs0 xs1 xs2 xs3

/-- The pieces a first-key-tile run leaves in each scratch buffer tile it. -/
theorem scover0_A_0 (c : Dev nD) (t : Fin cfg0.N) (h0 : t.val % 2 = 0) (y : S512x1024.Idx) :
    ∃ pc ∈ (runA m c t h0).1, y ∈ pc.1.set :=
  View.cover_of_tiledL (runA m c t h0).1 S512x1024.size (by sl_kernel_rfl) y
theorem scover0_A_1 (c : Dev nD) (t : Fin cfg0.N) (h0 : t.val % 2 = 0) (y : S512x1.Idx) :
    ∃ pc ∈ (runA m c t h0).2.1, y ∈ pc.1.set :=
  View.cover_of_tiledL (runA m c t h0).2.1 S512x1.size (by sl_kernel_rfl) y
theorem scover0_A_2 (c : Dev nD) (t : Fin cfg0.N) (h0 : t.val % 2 = 0) (y : S512x1.Idx) :
    ∃ pc ∈ (runA m c t h0).2.2.1, y ∈ pc.1.set :=
  View.cover_of_tiledL (runA m c t h0).2.2.1 S512x1.size (by sl_kernel_rfl) y
theorem scover0_A_3 (c : Dev nD) (t : Fin cfg0.N) (h0 : t.val % 2 = 0) (y : S512x1024.Idx) :
    ∃ pc ∈ (runA m c t h0).2.2.2.1, y ∈ pc.1.set :=
  View.cover_of_tiledL (runA m c t h0).2.2.2.1 S512x1024.size (by sl_kernel_rfl) y

/-- What a first-key-tile run leaves in each scratch buffer: its pieces read back. -/
def sout0_A_0 (c : Dev nD) (t : Fin cfg0.N) (h0 : t.val % 2 = 0) : Vec F S512x1024 .bf16 :=
  VS0_0.read (Elt F) (VS0_0.writes (Elt F) VS0_0.junk (runA m c t h0).1)
def sout0_A_1 (c : Dev nD) (t : Fin cfg0.N) (h0 : t.val % 2 = 0) : Vec F S512x1 .f32 :=
  VS0_1.read (Elt F) (VS0_1.writes (Elt F) VS0_1.junk (runA m c t h0).2.1)
def sout0_A_2 (c : Dev nD) (t : Fin cfg0.N) (h0 : t.val % 2 = 0) : Vec F S512x1 .f32 :=
  VS0_2.read (Elt F) (VS0_2.writes (Elt F) VS0_2.junk (runA m c t h0).2.2.1)
def sout0_A_3 (c : Dev nD) (t : Fin cfg0.N) (h0 : t.val % 2 = 0) : Vec F S512x1024 .f32 :=
  VS0_3.read (Elt F) (VS0_3.writes (Elt F) VS0_3.junk (runA m c t h0).2.2.2.1)

/-- A first-key-tile run stores nothing into the result window: a placeholder nothing consults (the window is
    neither written back there nor read at the next point). -/
def out0_A_5 : Vec F S1x512x1024 .f32 := VO0_5.read (Elt F) (VO0_5.writes (Elt F) VO0_5.junk [])

/-- The pieces a last-key-tile run leaves in the result window and in the three running scratch buffers tile them. -/
theorem cover0_B_5 (c : Dev nD) (t : Fin cfg0.N) (h0 : ¬t.val % 2 = 0) (xs0 : Vec F S512x1024 .bf16) (xs1 xs2 : Vec F S512x1 .f32) (xs3 : Vec F S512x1024 .f32) (y : S1x512x1024.Idx) :
    ∃ pc ∈ (runB m c t h0 xs0 xs1 xs2 xs3).1, y ∈ pc.1.set :=
  View.cover_of_tiledL (runB m c t h0 xs0 xs1 xs2 xs3).1 S1x512x1024.size (by sl_kernel_rfl) y
theorem scover0_B_1 (c : Dev nD) (t : Fin cfg0.N) (h0 : ¬t.val % 2 = 0) (xs0 : Vec F S512x1024 .bf16) (xs1 xs2 : Vec F S512x1 .f32) (xs3 : Vec F S512x1024 .f32) (y : S512x1.Idx) :
    ∃ pc ∈ (runB m c t h0 xs0 xs1 xs2 xs3).2.1, y ∈ pc.1.set :=
  View.cover_of_tiledL (runB m c t h0 xs0 xs1 xs2 xs3).2.1 S512x1.size (by sl_kernel_rfl) y
theorem scover0_B_2 (c : Dev nD) (t : Fin cfg0.N) (h0 : ¬t.val % 2 = 0) (xs0 : Vec F S512x1024 .bf16) (xs1 xs2 : Vec F S512x1 .f32) (xs3 : Vec F S512x1024 .f32) (y : S512x1.Idx) :
    ∃ pc ∈ (runB m c t h0 xs0 xs1 xs2 xs3).2.2.1, y ∈ pc.1.set :=
  View.cover_of_tiledL (runB m c t h0 xs0 xs1 xs2 xs3).2.2.1 S512x1.size (by sl_kernel_rfl) y
theorem scover0_B_3 (c : Dev nD) (t : Fin cfg0.N) (h0 : ¬t.val % 2 = 0) (xs0 : Vec F S512x1024 .bf16) (xs1 xs2 : Vec F S512x1 .f32) (xs3 : Vec F S512x1024 .f32) (y : S512x1024.Idx) :
    ∃ pc ∈ (runB m c t h0 xs0 xs1 xs2 xs3).2.2.2.1, y ∈ pc.1.set :=
  View.cover_of_tiledL (runB m c t h0 xs0 xs1 xs2 xs3).2.2.2.1 S512x1024.size (by sl_kernel_rfl) y

/-- What a last-key-tile run leaves in the result window and in the three running scratch buffers. -/
def out0_B_5 (c : Dev nD) (t : Fin cfg0.N) (h0 : ¬t.val % 2 = 0) (xs0 : Vec F S512x1024 .bf16) (xs1 xs2 : Vec F S512x1 .f32) (xs3 : Vec F S512x1024 .f32) : Vec F S1x512x1024 .f32 :=
  VO0_5.read (Elt F) (VO0_5.writes (Elt F) VO0_5.junk (runB m c t h0 xs0 xs1 xs2 xs3).1)
def sout0_B_1 (c : Dev nD) (t : Fin cfg0.N) (h0 : ¬t.val % 2 = 0) (xs0 : Vec F S512x1024 .bf16) (xs1 xs2 : Vec F S512x1 .f32) (xs3 : Vec F S512x1024 .f32) : Vec F S512x1 .f32 :=
  VS0_1.read (Elt F) (VS0_1.writes (Elt F) VS0_1.junk (runB m c t h0 xs0 xs1 xs2 xs3).2.1)
def sout0_B_2 (c : Dev nD) (t : Fin cfg0.N) (h0 : ¬t.val % 2 = 0) (xs0 : Vec F S512x1024 .bf16) (xs1 xs2 : Vec F S512x1 .f32) (xs3 : Vec F S512x1024 .f32) : Vec F S512x1 .f32 :=
  VS0_2.read (Elt F) (VS0_2.writes (Elt F) VS0_2.junk (runB m c t h0 xs0 xs1 xs2 xs3).2.2.1)
def sout0_B_3 (c : Dev nD) (t : Fin cfg0.N) (h0 : ¬t.val % 2 = 0) (xs0 : Vec F S512x1024 .bf16) (xs1 xs2 : Vec F S512x1 .f32) (xs3 : Vec F S512x1024 .f32) : Vec F S512x1024 .f32 :=
  VS0_3.read (Elt F) (VS0_3.writes (Elt F) VS0_3.junk (runB m c t h0 xs0 xs1 xs2 xs3).2.2.2.1)

/-! ## What the buffers hold after each point -/

/-- The buffers after a first-key-tile point: the result window's placeholder, then the four scratch buffers. -/
def stA (c : Dev nD) (t : Fin cfg0.N) (h0 : t.val % 2 = 0) : Vec F S1x512x1024 .f32 × Vec F S512x1024 .bf16 × Vec F S512x1 .f32 × Vec F S512x1 .f32 × Vec F S512x1024 .f32 :=
  (out0_A_5, sout0_A_0 m c t h0, sout0_A_1 m c t h0, sout0_A_2 m c t h0, sout0_A_3 m c t h0)

/-- The buffers after a last-key-tile point, from what the point before left (`prev`): the result block, the query
    block as it was, and the three running scratch buffers updated. -/
def stB (c : Dev nD) (t : Fin cfg0.N) (h0 : ¬t.val % 2 = 0) (prev : Vec F S1x512x1024 .f32 × Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (out0_B_5 m c t h0 prev.2.1 prev.2.2.1 prev.2.2.2.1 prev.2.2.2.2, prev.2.1,
    sout0_B_1 m c t h0 prev.2.1 prev.2.2.1 prev.2.2.2.1 prev.2.2.2.2,
    sout0_B_2 m c t h0 prev.2.1 prev.2.2.1 prev.2.2.2.1 prev.2.2.2.2,
    sout0_B_3 m c t h0 prev.2.1 prev.2.2.1 prev.2.2.2.1 prev.2.2.2.2)

/-- THE ACCUMULATION: the result window's buffer and the four scratch buffers after the body at position `n`. -/
def outsAt0 (c : Dev nD) : (n : ℕ) → n < cfg0.N → Vec F S1x512x1024 .f32 × Vec F S512x1024 .bf16 × Vec F S512x1 .f32 × Vec F S512x1 .f32 × Vec F S512x1024 .f32
  | 0, hn => stA m c ⟨0, hn⟩ (Nat.zero_mod _)
  | n + 1, hn =>
    if h0 : (n + 1) % 2 = 0 then stA m c ⟨n + 1, hn⟩ h0
    else stB m c ⟨n + 1, hn⟩ h0 (outsAt0 c n (Nat.lt_of_succ_lt hn))

theorem outsAt0_A (c : Dev nD) (t : Fin cfg0.N) (h0 : t.val % 2 = 0) :
    outsAt0 m c t.val t.isLt = stA m c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = stB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`: before the first point every scratch buffer at anything; afterwards
    each scratch buffer at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2))

theorem PhiS_zero (c : Dev nD) (n : ℕ) (h : n ≤ cfg0.N) (hz : n = 0) : PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) := by
  cases n with
  | zero => exact absurd rfl hz
  | succ n => rfl

/-! ## The proof data -/

/-- The proof data of the launch on core `c`: the arrays as the launch finds them; after the body at point `t` each
    input's buffer at its block and the result window's at `outsAt0`; the invariant `PhiS`; nothing owed; the array
    the query-row and key-row windows share held at its left and right half share, every other at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; an even point is a first-key-tile point and an odd
    one a last-key-tile point, so the case's run applies; the invariant hands the body the scratch at what the point
    before left (at anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t (condA0 t h0) (condA1 t h0)) (noFlush0_5_A t (condA0 t h0) (condA1 t h0))]
      rw [outsAt0_A m c t h0]
      unfold stA sout0_A_0 sout0_A_1 sout0_A_2 sout0_A_3; (try dsimp only)
      by_cases hz : t.val = 0
      · rw [PhiS_castSucc m c t, PhiS_zero m c _ _ hz, scopedRest0_owns]
        iintro ⟨⟨HS0, HS1, HS2, HS3⟩, Ho, ⟨%d0, H0⟩, ⟨%d1, H1⟩, ⟨%d2, H2⟩, ⟨%d3, H3⟩, ⟨%d4, H4⟩, ⟨%d5, H5⟩⟩
        iapply ((runA m c t h0).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3]
        · skip
          isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · unfold owns; iexists _; isplitr
            swap; · iexact HS2
            ipureintro; exact View.read_writes_of_cover _ _ _ _ _ (scover0_A_2 m c t h0)
          unfold owns; iexists _; isplitr
          swap; · iexact HS3
          ipureintro; exact View.read_writes_of_cover _ _ _ _ _ (scover0_A_3 m c t h0)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, HS1, HS2, HS3⟩, Ho, ⟨%d0, H0⟩, ⟨%d1, H1⟩, ⟨%d2, H2⟩, ⟨%d3, H3⟩, ⟨%d4, H4⟩, ⟨%d5, H5⟩⟩
        iapply ((runA m c t h0).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3]
        · skip
          isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · unfold owns; iexists _; isplitr
            swap; · iexact HS2
            ipureintro; exact View.read_writes_of_cover _ _ _ _ _ (scover0_A_2 m c t h0)
          unfold owns; iexists _; isplitr
          swap; · iexact HS3
          ipureintro; exact View.read_writes_of_cover _ _ _ _ _ (scover0_A_3 m c t h0)
        isplitl [Ho]; · iexact Ho
        isplitl [H0]; · iexact H0
        isplitl [H1]; · iexact H1
        isplitl [H2]; · iexact H2
        isplitl [H3]; · iexact H3
        isplitl [H4]; · iexact H4
        iexists _; iexact H5
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_B t (condB0 t h0) (condB1 t h0)], after0_5]
      rw [outsAt0_B m c t h0]
      unfold stB out0_B_5 sout0_B_1 sout0_B_2 sout0_B_3; (try dsimp only)
      have hz : t.val ≠ 0 := fun e => h0 (by rw [e])
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runB m c t h0 _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, ⟨%es1, HS1⟩, ⟨%es2, HS2⟩, ⟨%es3, HS3⟩⟩
      isplitl [HS0 HS1 HS2 HS3]
      · isplitl [HS0]
        · iexact HS0
        isplitl [HS1]
        · unfold owns; iexists _; isplitr
          swap; · iexact HS1
          ipureintro; exact View.read_writes_of_cover _ _ _ _ _ (scover0_B_1 m c t h0 _ _ _ _)
        isplitl [HS2]
        · unfold owns; iexists _; isplitr
          swap; · iexact HS2
          ipureintro; exact View.read_writes_of_cover _ _ _ _ _ (scover0_B_2 m c t h0 _ _ _ _)
        unfold owns; iexists _; isplitr
        swap; · iexact HS3
        ipureintro; exact View.read_writes_of_cover _ _ _ _ _ (scover0_B_3 m c t h0 _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 m c t h0 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back at some contents. -/
theorem Phi_out (c : Dev nD) (t : Fin (cfg0.N + 1)) (ht : t.val ≠ 0) : (dats m 0 c).Φ t ⊢ Pipeline.scopedRest (Ix := Unit) (Name := ℕ) (U := UR sig nD τ) (Lvl := ℕ) (Val := Elt F) spec0 c := by
  rw [show (dats m 0 c).Φ t = PhiS m c t.val (Nat.le_of_lt_succ t.isLt) from rfl, PhiS_pos m c _ _ ht, scopedRest0_owns]
  iintro ⟨HS0, HS1, HS2, HS3⟩
  isplitl [HS0]; · iexists _; iexact HS0
  isplitl [HS1]; · iexists _; iexact HS1
  isplitl [HS2]; · iexists _; iexact HS2
  iexists _; iexact HS3

theorem hout (c : Dev nD) : (dats m 0 c).Φ (Fin.last cfg0.N) ⊢ Pipeline.scopedRest (Ix := Unit) (Name := ℕ) (U := UR sig nD τ) (Lvl := ℕ) (Val := Elt F) spec0 c :=
  Phi_out m c _ (by rw [Fin.val_last]; have : cfg0.N = 32 := N_0; omega)

end Cert.Kernel.Hand

end
-- ==== Proof.K.Launch.lean ====
/-
  The launch of the attention kernel and what it proves about the program. The converted `x` is handed to the
  kernel through two input windows (query rows and key rows): the buffer behind it, held whole by the program, is
  split into its left and right half shares, one for each window, both at the same contents; every other array is
  handed over whole. With the body's obligation at every grid point this gives the run: every execution of the
  program terminates without a fault, every array of the launch ends at what the proof data compute (an input at
  its contents at the launch, the result array at its launch contents overwritten by the blocks written back), and
  every other unscoped buffer ends as the launch found it. The program's frame follows: the four argument arrays end
  unchanged.
-/
import proofs.«419303_j30477087932642_3_alg».proof.Proof.K.Data
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra is the pipeline library's alone. -/
abbrev EP : Emb (UR sig nD τ) (MT nD τ sig Unit (Elt F) ℕ (UR sig nD τ) ℕ) := emb₁

/-- The launch element of the pipeline's staging cells. -/
def u₀ : UR sig nD τ := initOf (Pipeline.cells cfgs cellOf_inj) (Pipeline.launchToks cfgs cellOf_inj)

/-- The five distinct buffers behind the six windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1) ∗ (((c : Thread nD τ).loc main_v1) ↦{fullShare} W main_v1) ∗ (((c : Thread nD τ).loc main_v2) ↦{fullShare} W main_v2) ∗ (((c : Thread nD τ).loc main_v3) ↦{fullShare} W main_v3)) := by
  unfold Pipeline.arrBufs
  exact Idealize.SL.BI.bigSep_eq_bigSepL_of_eq [main_v0, main_arg1, main_v1, main_v2, main_v3] (by decide) (by decide) _

/-- One array held whole splits into its two half shares, at the same contents, one for each of the two windows on
    it; the other four arrays are kept whole. Stated for any contents `W` of the buffers. -/
theorem split_general (c : Dev nD) (W : (b : Ref sig .tc) → Buf (Elt F) ((c : Thread nD τ).loc b)) :
    (iprop((((c : Thread nD τ).loc main_v0) ↦{fullShare} W main_v0) ∗ (((c : Thread nD τ).loc main_arg1) ↦{fullShare} W main_arg1) ∗ (((c : Thread nD τ).loc main_v1) ↦{fullShare} W main_v1) ∗ (((c : Thread nD τ).loc main_v2) ↦{fullShare} W main_v2) ∗ (((c : Thread nD τ).loc main_v3) ↦{fullShare} W main_v3)) : sProp 𝕄)
      ⊢ iprop((((c : Thread nD τ).loc (Pipeline.arrRef spec0 (0 : Fin 6))) ↦{fullShare.left} W (Pipeline.arrRef spec0 (0 : Fin 6))) ∗ (((c : Thread nD τ).loc (Pipeline.arrRef spec0 (1 : Fin 6))) ↦{fullShare.right} W (Pipeline.arrRef spec0 (1 : Fin 6))) ∗ (((c : Thread nD τ).loc (Pipeline.arrRef spec0 (2 : Fin 6))) ↦{fullShare} W (Pipeline.arrRef spec0 (2 : Fin 6))) ∗ (((c : Thread nD τ).loc (Pipeline.arrRef spec0 (3 : Fin 6))) ↦{fullShare} W (Pipeline.arrRef spec0 (3 : Fin 6))) ∗ (((c : Thread nD τ).loc (Pipeline.arrRef spec0 (4 : Fin 6))) ↦{fullShare} W (Pipeline.arrRef spec0 (4 : Fin 6))) ∗ (((c : Thread nD τ).loc (Pipeline.arrRef spec0 (5 : Fin 6))) ↦{fullShare} W (Pipeline.arrRef spec0 (5 : Fin 6)))) := by
  iintro ⟨Hx, Hm, Hq, Hv, Ho⟩
  ihave Hx' := (pointsTo_share (PosShare.mem_left_op_right fullShare)).1 $$ Hx
  icases Hx' with ⟨Hxl, Hxr⟩
  isplitl [Hxl]; · iexact Hxl
  isplitl [Hxr]; · iexact Hxr
  isplitl [Hm]; · iexact Hm
  isplitl [Hq]; · iexact Hq
  isplitl [Hv]; · iexact Hv
  iexact Ho

/-- The share each window holds its array at: the two windows on the converted `x` a half each, the others whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The proof data's arrays at the launch are the launch's contents. -/
theorem arrAt0 (c : Dev nD) (w : Fin cfg0.W) : (dats m 0 c).arrAt w 0 = V m c (Pipeline.arrRef spec0 w) := by
  show (dats m 0 c).A w = _
  exact A_eq m c w

/-- The buffers behind the arrays, each whole at the full share, make the proof data's arrays at the launch: the
    converted `x` split into two halves for its two windows. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  refine (split_general c (V m c)).trans ?_
  unfold Dat.arrays
  rw [bigSep_W0]
  simp only [share0, share1, share2, share3, share4, share5]
  rw [arrAt0 m c 0, arrAt0 m c 1, arrAt0 m c 2, arrAt0 m c 3, arrAt0 m c 4, arrAt0 m c 5]
  generalize V m c = W
  rw [(arr_whole0 0).set_eq_univ, (arr_whole0 2).set_eq_univ, (arr_whole0 3).set_eq_univ, (arr_whole0 4).set_eq_univ, (arr_whole0 5).set_eq_univ]

set_option backward.isDefEq.respectTransparency.types false in
/-- THE RUN: every weakly fair execution of the program terminates without a fault; each array of the launch ends at
    what the proof data compute after the last write-back, and every other unscoped buffer as the launch found it. -/
theorem run_main : θ_run defs (onTc (τ := τ) (main (F := F))) (s₀ m ρ) (fun r => ∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b) = V m c b) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- THE FRAME of the program, at any float instance: it runs to the end and its four argument arrays end unchanged.
    `x`, `Wqk` and `Wvc` are no array of the launch (the launch reads their converted copies) and bypass it; the
    mask is the launch's third input window's array, which the launch leaves as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KI.Shared.lean ====
/-
  The attention kernel's program around its one launch, and the facts about the launch's grid that the run of the
  kernel body is stated over. The program converts `x`, `Wqk` and `Wvc` to the narrow float format on the host and
  then launches the kernel on a grid of 32 points (4 batches × 4 query tiles × 2 key tiles, the key tile the
  fastest axis). Here: what the unscoped buffers hold when the launch begins (the host conversions applied; the
  four argument arrays untouched); each window's block of its array at a grid point; that an input window's buffer
  holds that block at every point; the two conditions the body branches on, which hold exactly at the even points
  (first key tile) and the odd points (second key tile); and that the result window is written only at the odd
  points.
-/
import proofs.«419303_j30477087932642_3_alg».proof.Proof.Gen.KernelIdeal.Launch
import proofs.«419303_j30477087932642_3_alg».proof.Proof.Gen.KernelIdeal.Skeleton
import proofs.«419303_j30477087932642_3_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s unscoped buffers hold when the launch begins: the launch memory after the three host conversions. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the host conversions followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host conversion writes an argument array: the launch finds each as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether or not the block was fetched there
    (where it was not, the block index has not moved), for any proof data whose array is the launch's and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first key tile": the body's first condition, from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last key tile": the body's second condition. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first-key-tile point the body stores nothing into the result window, -/
theorem idleAt0_5_A : ∀ t : Fin cfg0.N, cond0_0 (grid0.coords t) → ¬cond0_1 (grid0.coords t) → cfg0.idle 5 (grid0.coords t) = true := by decide +kernel
/-- and the window's block is not written back there. -/
theorem noFlush0_5_A : ∀ t : Fin cfg0.N, cond0_0 (grid0.coords t) → ¬cond0_1 (grid0.coords t) → (cfg0.win 5).flush t = false := by decide +kernel
/-- At a last-key-tile point the body stores the result block. -/
theorem liveAt0_5_B : ∀ t : Fin cfg0.N, ¬cond0_0 (grid0.coords t) → cond0_1 (grid0.coords t) → cfg0.idle 5 (grid0.coords t) = false := by decide +kernel

/-! ## The memrefs the body is called with -/

abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .f32 := win0_5.stage (cfg0.slots t 5)
abbrev hs0_5 (t : Fin cfg0.N) : (ms0_5 t).IsWhole := hstage0_5 ((cfg0.slots t 5).cast nbuf0_5)
/-- The four scratch buffers the kernel carries from point to point: the scaled query block, the running maximum,
    the running sum, the running weighted row sum. -/
abbrev scM0_0 : Memref sig .tc .vmem S512x1024 .bf16 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1024 .f32 := Memref.whole cc0_scratch3
abbrev VO0_5 : View sig .tc .vmem S1x512x1024 .f32 := (Memref.whole cc0_stg5_0 : Memref sig .tc .vmem S1x512x1024 .f32).view
abbrev VS0_0 : View sig .tc .vmem S512x1024 .bf16 := scM0_0.view
abbrev VS0_1 : View sig .tc .vmem S512x1 .f32 := scM0_1.view
abbrev VS0_2 : View sig .tc .vmem S512x1 .f32 := scM0_2.view
abbrev VS0_3 : View sig .tc .vmem S512x1024 .f32 := scM0_3.view

/-- What the launch hands the body besides the windows: the four scratch buffers, each at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.KernelIdeal.Hand

end
-- ==== Proof.KI.RunA.lean ====
/-
  The kernel body run from start to end at a grid point of the first key tile: the query rows, key rows, mask block and both weight matrices are read and left as they were; the result window is not touched; the four scratch buffers may hold anything on entry and end holding the scaled query block, the first tile's maximum, its sum of exponentials and its weighted row sum.
  The run is symbolic: it steps through the body's loads and stores on whole buffers, deciding its two branches by
  the case's hypotheses, and what each stored buffer ends with is recorded as the list of pieces the stores wrote,
  found by the run itself.
-/
import proofs.«419303_j30477087932642_3_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first-key-tile point: the pieces its stores leave in the four scratch buffers, with the proof
    that from whole buffers (inputs at their contents, the result window at `xi8`, the scratch at anything) it runs
    to a state with the inputs and the result window as they were and each scratch buffer holding its pieces. -/
noncomputable def kernelRun0_A (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1024 .i32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0_0 i) (hc1 : ¬cond0_1 i)
    (x3 : Vec F S1x512x1024 .bf16) (x4 : Vec F S1x1024x1024 .bf16) (x5 : Vec F S1x512x1024 .i32) (x6 x7 : Vec F S1024x1024 .bf16) :
    Σ' (LS0 : List (View.Piece (Elt F) S512x1024 .bf16)) (LS1 : List (View.Piece (Elt F) S512x1 .f32)) (LS2 : List (View.Piece (Elt F) S512x1 .f32)),
      { LS3 : List (View.Piece (Elt F) S512x1024 .f32) //
      ∀ (xi8 : Vec F S1x512x1024 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12) K } := by
  refine ⟨?_, ?_, ?_, ?_, fun xi8 E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, HS0⟩, ⟨%d10, %f10, -, HS1⟩, ⟨%d11, %f11, -, HS2⟩, ⟨%d12, %f12, -, HS3⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The kernel body run from start to end at a grid point of the last key tile: the inputs are read and left as they were; the scaled query block kept in scratch is read and left as it was; the running maximum, sum and weighted row sum enter at the contents the point before left and are updated; the result window may hold anything on entry and ends holding the result block.
  The run is symbolic: it steps through the body's loads and stores on whole buffers, deciding its two branches by
  the case's hypotheses, and what each stored buffer ends with is recorded as the list of pieces the stores wrote,
  found by the run itself.
-/
import proofs.«419303_j30477087932642_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a last-key-tile point: the pieces its stores leave in the result window and in the three running
    scratch buffers, with the proof that from whole buffers (inputs at their contents, the scratch at the carried
    contents `xs·`, the result window at anything) it runs to a state with the inputs and the query block as they
    were and each stored buffer holding its pieces. -/
noncomputable def kernelRun0_B (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1024 .i32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : cond0_1 i)
    (x3 : Vec F S1x512x1024 .bf16) (x4 : Vec F S1x1024x1024 .bf16) (x5 : Vec F S1x512x1024 .i32) (x6 x7 : Vec F S1024x1024 .bf16) (xs0 : Vec F S512x1024 .bf16) (xs1 xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)),
      { LS3 : List (View.Piece (Elt F) S512x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L5)
                ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg3.eq_unread hf3; obtain rfl := harg4.eq_unread hf4; obtain rfl := harg5.eq_unread hf5
    obtain rfl := harg6.eq_unread hf6; obtain rfl := harg7.eq_unread hf7
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Hand

end
-- ==== Proof.KI.Data.lean ====
/-
  What the attention kernel leaves in its buffers, point by point over the 32 grid points, and the body's
  obligation at every point. At an even point (first key tile) the body resets the four scratch buffers from the
  point's blocks alone; at an odd point (last key tile) it updates the running maximum, sum and weighted row sum
  from what the point before left, keeps the scaled query block, and writes the result block. So the contents after
  point `n` are defined by recursion on `n` (`outsAt0`): the even case from the blocks, the odd case from the blocks
  and the contents after `n - 1`. Each buffer's contents after a case are the pieces the case's stores wrote, read
  back; the pieces tile the buffer, so nothing of what it held before shows through. The array `x` (converted)
  feeds two input windows, the query rows and the key rows: each window holds it at half the full share.
-/
import proofs.«419303_j30477087932642_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases at a point -/

theorem condA0 (t : Fin cfg0.N) (h0 : t.val % 2 = 0) : cond0_0 (grid0.coords t) := (hcond0_0 t).mpr h0
theorem condA1 (t : Fin cfg0.N) (h0 : t.val % 2 = 0) : ¬cond0_1 (grid0.coords t) := fun h => by
  have := (hcond0_1 t).mp h; omega
theorem condB0 (t : Fin cfg0.N) (h0 : ¬t.val % 2 = 0) : ¬cond0_0 (grid0.coords t) := fun h => h0 ((hcond0_0 t).mp h)
theorem condB1 (t : Fin cfg0.N) (h0 : ¬t.val % 2 = 0) : cond0_1 (grid0.coords t) := (hcond0_1 t).mpr (by omega)

/-- The first-key-tile run at point `t`, on the point's buffers and blocks. -/
abbrev runA (c : Dev nD) (t : Fin cfg0.N) (h0 : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (condA0 t h0) (condA1 t h0) (iblk m c 0 t) (iblk m c 1 t) (iblk m c 2 t) (iblk m c 3 t) (iblk m c 4 t)

/-- The last-key-tile run at point `t`, on the point's buffers and blocks and the carried scratch contents. -/
abbrev runB (c : Dev nD) (t : Fin cfg0.N) (h0 : ¬t.val % 2 = 0) (xs0 : Vec F S512x1024 .bf16) (xs1 xs2 : Vec F S512x1 .f32) (xs3 : Vec F S512x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (condB0 t h0) (condB1 t h0) (iblk m c 0 t) (iblk m c 1 t) (iblk m c 2 t) (iblk m c 3 t) (iblk m c 4 t) xs0 xs1 xs2 xs3

/-- The pieces a first-key-tile run leaves in each scratch buffer tile it. -/
theorem scover0_A_0 (c : Dev nD) (t : Fin cfg0.N) (h0 : t.val % 2 = 0) (y : S512x1024.Idx) :
    ∃ pc ∈ (runA m c t h0).1, y ∈ pc.1.set :=
  View.cover_of_tiledL (runA m c t h0).1 S512x1024.size (by sl_kernel_rfl) y
theorem scover0_A_1 (c : Dev nD) (t : Fin cfg0.N) (h0 : t.val % 2 = 0) (y : S512x1.Idx) :
    ∃ pc ∈ (runA m c t h0).2.1, y ∈ pc.1.set :=
  View.cover_of_tiledL (runA m c t h0).2.1 S512x1.size (by sl_kernel_rfl) y
theorem scover0_A_2 (c : Dev nD) (t : Fin cfg0.N) (h0 : t.val % 2 = 0) (y : S512x1.Idx) :
    ∃ pc ∈ (runA m c t h0).2.2.1, y ∈ pc.1.set :=
  View.cover_of_tiledL (runA m c t h0).2.2.1 S512x1.size (by sl_kernel_rfl) y
theorem scover0_A_3 (c : Dev nD) (t : Fin cfg0.N) (h0 : t.val % 2 = 0) (y : S512x1024.Idx) :
    ∃ pc ∈ (runA m c t h0).2.2.2.1, y ∈ pc.1.set :=
  View.cover_of_tiledL (runA m c t h0).2.2.2.1 S512x1024.size (by sl_kernel_rfl) y

/-- What a first-key-tile run leaves in each scratch buffer: its pieces read back. -/
def sout0_A_0 (c : Dev nD) (t : Fin cfg0.N) (h0 : t.val % 2 = 0) : Vec F S512x1024 .bf16 :=
  VS0_0.read (Elt F) (VS0_0.writes (Elt F) VS0_0.junk (runA m c t h0).1)
def sout0_A_1 (c : Dev nD) (t : Fin cfg0.N) (h0 : t.val % 2 = 0) : Vec F S512x1 .f32 :=
  VS0_1.read (Elt F) (VS0_1.writes (Elt F) VS0_1.junk (runA m c t h0).2.1)
def sout0_A_2 (c : Dev nD) (t : Fin cfg0.N) (h0 : t.val % 2 = 0) : Vec F S512x1 .f32 :=
  VS0_2.read (Elt F) (VS0_2.writes (Elt F) VS0_2.junk (runA m c t h0).2.2.1)
def sout0_A_3 (c : Dev nD) (t : Fin cfg0.N) (h0 : t.val % 2 = 0) : Vec F S512x1024 .f32 :=
  VS0_3.read (Elt F) (VS0_3.writes (Elt F) VS0_3.junk (runA m c t h0).2.2.2.1)

/-- A first-key-tile run stores nothing into the result window: a placeholder nothing consults (the window is
    neither written back there nor read at the next point). -/
def out0_A_5 : Vec F S1x512x1024 .f32 := VO0_5.read (Elt F) (VO0_5.writes (Elt F) VO0_5.junk [])

/-- The pieces a last-key-tile run leaves in the result window and in the three running scratch buffers tile them. -/
theorem cover0_B_5 (c : Dev nD) (t : Fin cfg0.N) (h0 : ¬t.val % 2 = 0) (xs0 : Vec F S512x1024 .bf16) (xs1 xs2 : Vec F S512x1 .f32) (xs3 : Vec F S512x1024 .f32) (y : S1x512x1024.Idx) :
    ∃ pc ∈ (runB m c t h0 xs0 xs1 xs2 xs3).1, y ∈ pc.1.set :=
  View.cover_of_tiledL (runB m c t h0 xs0 xs1 xs2 xs3).1 S1x512x1024.size (by sl_kernel_rfl) y
theorem scover0_B_1 (c : Dev nD) (t : Fin cfg0.N) (h0 : ¬t.val % 2 = 0) (xs0 : Vec F S512x1024 .bf16) (xs1 xs2 : Vec F S512x1 .f32) (xs3 : Vec F S512x1024 .f32) (y : S512x1.Idx) :
    ∃ pc ∈ (runB m c t h0 xs0 xs1 xs2 xs3).2.1, y ∈ pc.1.set :=
  View.cover_of_tiledL (runB m c t h0 xs0 xs1 xs2 xs3).2.1 S512x1.size (by sl_kernel_rfl) y
theorem scover0_B_2 (c : Dev nD) (t : Fin cfg0.N) (h0 : ¬t.val % 2 = 0) (xs0 : Vec F S512x1024 .bf16) (xs1 xs2 : Vec F S512x1 .f32) (xs3 : Vec F S512x1024 .f32) (y : S512x1.Idx) :
    ∃ pc ∈ (runB m c t h0 xs0 xs1 xs2 xs3).2.2.1, y ∈ pc.1.set :=
  View.cover_of_tiledL (runB m c t h0 xs0 xs1 xs2 xs3).2.2.1 S512x1.size (by sl_kernel_rfl) y
theorem scover0_B_3 (c : Dev nD) (t : Fin cfg0.N) (h0 : ¬t.val % 2 = 0) (xs0 : Vec F S512x1024 .bf16) (xs1 xs2 : Vec F S512x1 .f32) (xs3 : Vec F S512x1024 .f32) (y : S512x1024.Idx) :
    ∃ pc ∈ (runB m c t h0 xs0 xs1 xs2 xs3).2.2.2.1, y ∈ pc.1.set :=
  View.cover_of_tiledL (runB m c t h0 xs0 xs1 xs2 xs3).2.2.2.1 S512x1024.size (by sl_kernel_rfl) y

/-- What a last-key-tile run leaves in the result window and in the three running scratch buffers. -/
def out0_B_5 (c : Dev nD) (t : Fin cfg0.N) (h0 : ¬t.val % 2 = 0) (xs0 : Vec F S512x1024 .bf16) (xs1 xs2 : Vec F S512x1 .f32) (xs3 : Vec F S512x1024 .f32) : Vec F S1x512x1024 .f32 :=
  VO0_5.read (Elt F) (VO0_5.writes (Elt F) VO0_5.junk (runB m c t h0 xs0 xs1 xs2 xs3).1)
def sout0_B_1 (c : Dev nD) (t : Fin cfg0.N) (h0 : ¬t.val % 2 = 0) (xs0 : Vec F S512x1024 .bf16) (xs1 xs2 : Vec F S512x1 .f32) (xs3 : Vec F S512x1024 .f32) : Vec F S512x1 .f32 :=
  VS0_1.read (Elt F) (VS0_1.writes (Elt F) VS0_1.junk (runB m c t h0 xs0 xs1 xs2 xs3).2.1)
def sout0_B_2 (c : Dev nD) (t : Fin cfg0.N) (h0 : ¬t.val % 2 = 0) (xs0 : Vec F S512x1024 .bf16) (xs1 xs2 : Vec F S512x1 .f32) (xs3 : Vec F S512x1024 .f32) : Vec F S512x1 .f32 :=
  VS0_2.read (Elt F) (VS0_2.writes (Elt F) VS0_2.junk (runB m c t h0 xs0 xs1 xs2 xs3).2.2.1)
def sout0_B_3 (c : Dev nD) (t : Fin cfg0.N) (h0 : ¬t.val % 2 = 0) (xs0 : Vec F S512x1024 .bf16) (xs1 xs2 : Vec F S512x1 .f32) (xs3 : Vec F S512x1024 .f32) : Vec F S512x1024 .f32 :=
  VS0_3.read (Elt F) (VS0_3.writes (Elt F) VS0_3.junk (runB m c t h0 xs0 xs1 xs2 xs3).2.2.2.1)

/-! ## What the buffers hold after each point -/

/-- The buffers after a first-key-tile point: the result window's placeholder, then the four scratch buffers. -/
def stA (c : Dev nD) (t : Fin cfg0.N) (h0 : t.val % 2 = 0) : Vec F S1x512x1024 .f32 × Vec F S512x1024 .bf16 × Vec F S512x1 .f32 × Vec F S512x1 .f32 × Vec F S512x1024 .f32 :=
  (out0_A_5, sout0_A_0 m c t h0, sout0_A_1 m c t h0, sout0_A_2 m c t h0, sout0_A_3 m c t h0)

/-- The buffers after a last-key-tile point, from what the point before left (`prev`): the result block, the query
    block as it was, and the three running scratch buffers updated. -/
def stB (c : Dev nD) (t : Fin cfg0.N) (h0 : ¬t.val % 2 = 0) (prev : Vec F S1x512x1024 .f32 × Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (out0_B_5 m c t h0 prev.2.1 prev.2.2.1 prev.2.2.2.1 prev.2.2.2.2, prev.2.1,
    sout0_B_1 m c t h0 prev.2.1 prev.2.2.1 prev.2.2.2.1 prev.2.2.2.2,
    sout0_B_2 m c t h0 prev.2.1 prev.2.2.1 prev.2.2.2.1 prev.2.2.2.2,
    sout0_B_3 m c t h0 prev.2.1 prev.2.2.1 prev.2.2.2.1 prev.2.2.2.2)

/-- THE ACCUMULATION: the result window's buffer and the four scratch buffers after the body at position `n`. -/
def outsAt0 (c : Dev nD) : (n : ℕ) → n < cfg0.N → Vec F S1x512x1024 .f32 × Vec F S512x1024 .bf16 × Vec F S512x1 .f32 × Vec F S512x1 .f32 × Vec F S512x1024 .f32
  | 0, hn => stA m c ⟨0, hn⟩ (Nat.zero_mod _)
  | n + 1, hn =>
    if h0 : (n + 1) % 2 = 0 then stA m c ⟨n + 1, hn⟩ h0
    else stB m c ⟨n + 1, hn⟩ h0 (outsAt0 c n (Nat.lt_of_succ_lt hn))

theorem outsAt0_A (c : Dev nD) (t : Fin cfg0.N) (h0 : t.val % 2 = 0) :
    outsAt0 m c t.val t.isLt = stA m c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = stB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`: before the first point every scratch buffer at anything; afterwards
    each scratch buffer at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2))

theorem PhiS_zero (c : Dev nD) (n : ℕ) (h : n ≤ cfg0.N) (hz : n = 0) : PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) := by
  cases n with
  | zero => exact absurd rfl hz
  | succ n => rfl

/-! ## The proof data -/

/-- The proof data of the launch on core `c`: the arrays as the launch finds them; after the body at point `t` each
    input's buffer at its block and the result window's at `outsAt0`; the invariant `PhiS`; nothing owed; the array
    the query-row and key-row windows share held at its left and right half share, every other at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; an even point is a first-key-tile point and an odd
    one a last-key-tile point, so the case's run applies; the invariant hands the body the scratch at what the point
    before left (at anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t (condA0 t h0) (condA1 t h0)) (noFlush0_5_A t (condA0 t h0) (condA1 t h0))]
      rw [outsAt0_A m c t h0]
      unfold stA sout0_A_0 sout0_A_1 sout0_A_2 sout0_A_3; (try dsimp only)
      by_cases hz : t.val = 0
      · rw [PhiS_castSucc m c t, PhiS_zero m c _ _ hz, scopedRest0_owns]
        iintro ⟨⟨HS0, HS1, HS2, HS3⟩, Ho, ⟨%d0, H0⟩, ⟨%d1, H1⟩, ⟨%d2, H2⟩, ⟨%d3, H3⟩, ⟨%d4, H4⟩, ⟨%d5, H5⟩⟩
        iapply ((runA m c t h0).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3]
        · skip
          isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · unfold owns; iexists _; isplitr
            swap; · iexact HS2
            ipureintro; exact View.read_writes_of_cover _ _ _ _ _ (scover0_A_2 m c t h0)
          unfold owns; iexists _; isplitr
          swap; · iexact HS3
          ipureintro; exact View.read_writes_of_cover _ _ _ _ _ (scover0_A_3 m c t h0)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, HS1, HS2, HS3⟩, Ho, ⟨%d0, H0⟩, ⟨%d1, H1⟩, ⟨%d2, H2⟩, ⟨%d3, H3⟩, ⟨%d4, H4⟩, ⟨%d5, H5⟩⟩
        iapply ((runA m c t h0).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3]
        · skip
          isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · unfold owns; iexists _; isplitr
            swap; · iexact HS2
            ipureintro; exact View.read_writes_of_cover _ _ _ _ _ (scover0_A_2 m c t h0)
          unfold owns; iexists _; isplitr
          swap; · iexact HS3
          ipureintro; exact View.read_writes_of_cover _ _ _ _ _ (scover0_A_3 m c t h0)
        isplitl [Ho]; · iexact Ho
        isplitl [H0]; · iexact H0
        isplitl [H1]; · iexact H1
        isplitl [H2]; · iexact H2
        isplitl [H3]; · iexact H3
        isplitl [H4]; · iexact H4
        iexists _; iexact H5
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_B t (condB0 t h0) (condB1 t h0)], after0_5]
      rw [outsAt0_B m c t h0]
      unfold stB out0_B_5 sout0_B_1 sout0_B_2 sout0_B_3; (try dsimp only)
      have hz : t.val ≠ 0 := fun e => h0 (by rw [e])
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runB m c t h0 _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, ⟨%es1, HS1⟩, ⟨%es2, HS2⟩, ⟨%es3, HS3⟩⟩
      isplitl [HS0 HS1 HS2 HS3]
      · isplitl [HS0]
        · iexact HS0
        isplitl [HS1]
        · unfold owns; iexists _; isplitr
          swap; · iexact HS1
          ipureintro; exact View.read_writes_of_cover _ _ _ _ _ (scover0_B_1 m c t h0 _ _ _ _)
        isplitl [HS2]
        · unfold owns; iexists _; isplitr
          swap; · iexact HS2
          ipureintro; exact View.read_writes_of_cover _ _ _ _ _ (scover0_B_2 m c t h0 _ _ _ _)
        unfold owns; iexists _; isplitr
        swap; · iexact HS3
        ipureintro; exact View.read_writes_of_cover _ _ _ _ _ (scover0_B_3 m c t h0 _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 m c t h0 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back at some contents. -/
theorem Phi_out (c : Dev nD) (t : Fin (cfg0.N + 1)) (ht : t.val ≠ 0) : (dats m 0 c).Φ t ⊢ Pipeline.scopedRest (Ix := Unit) (Name := ℕ) (U := UR sig nD τ) (Lvl := ℕ) (Val := Elt F) spec0 c := by
  rw [show (dats m 0 c).Φ t = PhiS m c t.val (Nat.le_of_lt_succ t.isLt) from rfl, PhiS_pos m c _ _ ht, scopedRest0_owns]
  iintro ⟨HS0, HS1, HS2, HS3⟩
  isplitl [HS0]; · iexists _; iexact HS0
  isplitl [HS1]; · iexists _; iexact HS1
  isplitl [HS2]; · iexists _; iexact HS2
  iexists _; iexact HS3

theorem hout (c : Dev nD) : (dats m 0 c).Φ (Fin.last cfg0.N) ⊢ Pipeline.scopedRest (Ix := Unit) (Name := ℕ) (U := UR sig nD τ) (Lvl := ℕ) (Val := Elt F) spec0 c :=
  Phi_out m c _ (by rw [Fin.val_last]; have : cfg0.N = 32 := N_0; omega)

end Cert.KernelIdeal.Hand

end
-- ==== Proof.KI.Launch.lean ====
/-
  The launch of the attention kernel and what it proves about the program. The converted `x` is handed to the
  kernel through two input windows (query rows and key rows): the buffer behind it, held whole by the program, is
  split into its left and right half shares, one for each window, both at the same contents; every other array is
  handed over whole. With the body's obligation at every grid point this gives the run: every execution of the
  program terminates without a fault, every array of the launch ends at what the proof data compute (an input at
  its contents at the launch, the result array at its launch contents overwritten by the blocks written back), and
  every other unscoped buffer ends as the launch found it. The program's frame follows: the four argument arrays end
  unchanged.
-/
import proofs.«419303_j30477087932642_3_alg».proof.Proof.KI.Data
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra is the pipeline library's alone. -/
abbrev EP : Emb (UR sig nD τ) (MT nD τ sig Unit (Elt F) ℕ (UR sig nD τ) ℕ) := emb₁

/-- The launch element of the pipeline's staging cells. -/
def u₀ : UR sig nD τ := initOf (Pipeline.cells cfgs cellOf_inj) (Pipeline.launchToks cfgs cellOf_inj)

/-- The five distinct buffers behind the six windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1) ∗ (((c : Thread nD τ).loc main_v1) ↦{fullShare} W main_v1) ∗ (((c : Thread nD τ).loc main_v2) ↦{fullShare} W main_v2) ∗ (((c : Thread nD τ).loc main_v3) ↦{fullShare} W main_v3)) := by
  unfold Pipeline.arrBufs
  exact Idealize.SL.BI.bigSep_eq_bigSepL_of_eq [main_v0, main_arg1, main_v1, main_v2, main_v3] (by decide) (by decide) _

/-- One array held whole splits into its two half shares, at the same contents, one for each of the two windows on
    it; the other four arrays are kept whole. Stated for any contents `W` of the buffers. -/
theorem split_general (c : Dev nD) (W : (b : Ref sig .tc) → Buf (Elt F) ((c : Thread nD τ).loc b)) :
    (iprop((((c : Thread nD τ).loc main_v0) ↦{fullShare} W main_v0) ∗ (((c : Thread nD τ).loc main_arg1) ↦{fullShare} W main_arg1) ∗ (((c : Thread nD τ).loc main_v1) ↦{fullShare} W main_v1) ∗ (((c : Thread nD τ).loc main_v2) ↦{fullShare} W main_v2) ∗ (((c : Thread nD τ).loc main_v3) ↦{fullShare} W main_v3)) : sProp 𝕄)
      ⊢ iprop((((c : Thread nD τ).loc (Pipeline.arrRef spec0 (0 : Fin 6))) ↦{fullShare.left} W (Pipeline.arrRef spec0 (0 : Fin 6))) ∗ (((c : Thread nD τ).loc (Pipeline.arrRef spec0 (1 : Fin 6))) ↦{fullShare.right} W (Pipeline.arrRef spec0 (1 : Fin 6))) ∗ (((c : Thread nD τ).loc (Pipeline.arrRef spec0 (2 : Fin 6))) ↦{fullShare} W (Pipeline.arrRef spec0 (2 : Fin 6))) ∗ (((c : Thread nD τ).loc (Pipeline.arrRef spec0 (3 : Fin 6))) ↦{fullShare} W (Pipeline.arrRef spec0 (3 : Fin 6))) ∗ (((c : Thread nD τ).loc (Pipeline.arrRef spec0 (4 : Fin 6))) ↦{fullShare} W (Pipeline.arrRef spec0 (4 : Fin 6))) ∗ (((c : Thread nD τ).loc (Pipeline.arrRef spec0 (5 : Fin 6))) ↦{fullShare} W (Pipeline.arrRef spec0 (5 : Fin 6)))) := by
  iintro ⟨Hx, Hm, Hq, Hv, Ho⟩
  ihave Hx' := (pointsTo_share (PosShare.mem_left_op_right fullShare)).1 $$ Hx
  icases Hx' with ⟨Hxl, Hxr⟩
  isplitl [Hxl]; · iexact Hxl
  isplitl [Hxr]; · iexact Hxr
  isplitl [Hm]; · iexact Hm
  isplitl [Hq]; · iexact Hq
  isplitl [Hv]; · iexact Hv
  iexact Ho

/-- The share each window holds its array at: the two windows on the converted `x` a half each, the others whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The proof data's arrays at the launch are the launch's contents. -/
theorem arrAt0 (c : Dev nD) (w : Fin cfg0.W) : (dats m 0 c).arrAt w 0 = V m c (Pipeline.arrRef spec0 w) := by
  show (dats m 0 c).A w = _
  exact A_eq m c w

/-- The buffers behind the arrays, each whole at the full share, make the proof data's arrays at the launch: the
    converted `x` split into two halves for its two windows. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  refine (split_general c (V m c)).trans ?_
  unfold Dat.arrays
  rw [bigSep_W0]
  simp only [share0, share1, share2, share3, share4, share5]
  rw [arrAt0 m c 0, arrAt0 m c 1, arrAt0 m c 2, arrAt0 m c 3, arrAt0 m c 4, arrAt0 m c 5]
  generalize V m c = W
  rw [(arr_whole0 0).set_eq_univ, (arr_whole0 2).set_eq_univ, (arr_whole0 3).set_eq_univ, (arr_whole0 4).set_eq_univ, (arr_whole0 5).set_eq_univ]

set_option backward.isDefEq.respectTransparency.types false in
/-- THE RUN: every weakly fair execution of the program terminates without a fault; each array of the launch ends at
    what the proof data compute after the last write-back, and every other unscoped buffer as the launch found it. -/
theorem run_main : θ_run defs (onTc (τ := τ) (main (F := F))) (s₀ m ρ) (fun r => ∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b) = V m c b) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- THE FRAME of the program, at any float instance: it runs to the end and its four argument arrays end unchanged.
    `x`, `Wqk` and `Wvc` are no array of the launch (the launch reads their converted copies) and bypass it; the
    mask is the launch's third input window's array, which the launch leaves as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.KI.Pieces.lean ====
/-
  What each case of the kernel body leaves in its buffers, as the body's own arithmetic applied to the point's
  blocks. At a first-key-tile point the body stores the scaled query block, resets the running maximum to minus
  infinity and the running sum and weighted row sum to zero, and then performs the first online-softmax step on
  what it has just stored; at a last-key-tile point it performs the step on what the point before left, and forms
  the result block from the updated sum and weighted row sum. Each buffer was left as a list of stored pieces; a
  later store of the whole buffer covers an earlier one, and a load after a store reads the stored value back, so
  the contents are the last stored value, written over the values the loads returned.
-/
import proofs.«419303_j30477087932642_3_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (t : Fin cfg0.N)

/-- The offsets of a store or load of a whole rank-2 buffer are all zero. -/
theorem hz2 : (![0, 0] : Fin 2 → Nat) = fun _ => 0 := funext fun a => by fin_cases a <;> rfl
/-- The offsets of a store or load of a whole rank-3 buffer are all zero. -/
theorem hz3 : (![0, 0, 0] : Fin 3 → Nat) = fun _ => 0 := funext fun a => by fin_cases a <;> rfl

/-- Reading a whole scratch buffer back from the raw contents chosen to read `X` gives `X`. -/
theorem rdS0 (h : (scM0_0 : Memref sig .tc .vmem S512x1024 .bf16).IsWhole) (X : Vec F S512x1024 .bf16) :
    View.read (Elt F) (View.whole cc0_scratch0) (h.unread X) = X := h.read_unread X
theorem rdS1 (h : (scM0_1 : Memref sig .tc .vmem S512x1 .f32).IsWhole) (X : Vec F S512x1 .f32) :
    View.read (Elt F) (View.whole cc0_scratch1) (h.unread X) = X := h.read_unread X
theorem rdS2 (h : (scM0_2 : Memref sig .tc .vmem S512x1 .f32).IsWhole) (X : Vec F S512x1 .f32) :
    View.read (Elt F) (View.whole cc0_scratch2) (h.unread X) = X := h.read_unread X
theorem rdS3 (h : (scM0_3 : Memref sig .tc .vmem S512x1024 .f32).IsWhole) (X : Vec F S512x1024 .f32) :
    View.read (Elt F) (View.whole cc0_scratch3) (h.unread X) = X := h.read_unread X

/-! ## A first-key-tile point -/

theorem soutA_0_eq (h0 : t.val % 2 = 0) : sout0_A_0 m c t h0 = k0_pay4 (iblk m c 0 t) (iblk m c 3 t) := by
  unfold sout0_A_0
  rw [View.read_writes_eq_canon _ _ _ (scover0_A_0 m c t h0)]
  dsimp only [runA]
  unfold kernelRun0_A
  dsimp only
  sl_unfold_words
  rw [View.canon_unit_zero hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

theorem soutA_1_eq (h0 : t.val % 2 = 0) :
    sout0_A_1 m c t h0 = k0_pay2 (k0_pay10 (iblk m c 1 t) (k0_pay4 (iblk m c 0 t) (iblk m c 3 t)) (iblk m c 2 t) (k0_pay5 (F := F))) := by
  unfold sout0_A_1
  rw [View.read_writes_eq_canon _ _ _ (scover0_A_1 m c t h0)]
  dsimp only [runA]
  unfold kernelRun0_A
  dsimp only
  sl_unfold_words
  rw [View.canon_cons_unit_zero (S := S512x1) hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

theorem soutA_2_eq (h0 : t.val % 2 = 0) :
    sout0_A_2 m c t h0 = k0_pay13 (iblk m c 1 t) (k0_pay4 (iblk m c 0 t) (iblk m c 3 t)) (iblk m c 2 t) (k0_pay5 (F := F)) (k0_pay5 (F := F)) (k0_pay6 (F := F)) := by
  unfold sout0_A_2
  rw [View.read_writes_eq_canon _ _ _ (scover0_A_2 m c t h0)]
  dsimp only [runA]
  unfold kernelRun0_A
  dsimp only
  sl_unfold_words
  rw [View.canon_cons_unit_zero (S := S512x1) hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

theorem soutA_3_eq (h0 : t.val % 2 = 0) :
    sout0_A_3 m c t h0 = k0_pay1 (k0_pay8 (iblk m c 1 t)) (k0_pay11 (iblk m c 1 t) (k0_pay4 (iblk m c 0 t) (iblk m c 3 t)) (iblk m c 2 t) (k0_pay5 (F := F)) (k0_pay5 (F := F)))
      (k0_pay14 (iblk m c 1 t) (k0_pay4 (iblk m c 0 t) (iblk m c 3 t)) (iblk m c 2 t) (k0_pay5 (F := F))) (k0_pay7 (F := F)) := by
  unfold sout0_A_3
  rw [View.read_writes_eq_canon _ _ _ (scover0_A_3 m c t h0)]
  dsimp only [runA]
  unfold kernelRun0_A
  dsimp only
  sl_unfold_words
  rw [View.canon_cons_unit_zero (S := S512x1024) hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

/-! ## A last-key-tile point -/

theorem soutB_1_eq (h0 : ¬t.val % 2 = 0) (xs0 : Vec F S512x1024 .bf16) (xs1 xs2 : Vec F S512x1 .f32) (xs3 : Vec F S512x1024 .f32) :
    sout0_B_1 m c t h0 xs0 xs1 xs2 xs3 = k0_pay2 (k0_pay10 (iblk m c 1 t) xs0 (iblk m c 2 t) xs1) := by
  unfold sout0_B_1
  rw [View.read_writes_eq_canon _ _ _ (scover0_B_1 m c t h0 xs0 xs1 xs2 xs3)]
  dsimp only [runB]
  unfold kernelRun0_B
  dsimp only
  sl_unfold_words
  rw [View.canon_unit_zero hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

theorem soutB_2_eq (h0 : ¬t.val % 2 = 0) (xs0 : Vec F S512x1024 .bf16) (xs1 xs2 : Vec F S512x1 .f32) (xs3 : Vec F S512x1024 .f32) :
    sout0_B_2 m c t h0 xs0 xs1 xs2 xs3 = (k0_pay13 (iblk m c 1 t) xs0 (iblk m c 2 t) xs1 xs1 xs2) := by
  unfold sout0_B_2
  rw [View.read_writes_eq_canon _ _ _ (scover0_B_2 m c t h0 xs0 xs1 xs2 xs3)]
  dsimp only [runB]
  unfold kernelRun0_B
  dsimp only
  sl_unfold_words
  rw [View.canon_unit_zero hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

theorem soutB_3_eq (h0 : ¬t.val % 2 = 0) (xs0 : Vec F S512x1024 .bf16) (xs1 xs2 : Vec F S512x1 .f32) (xs3 : Vec F S512x1024 .f32) :
    sout0_B_3 m c t h0 xs0 xs1 xs2 xs3 = (k0_pay1 (k0_pay8 (iblk m c 1 t)) (k0_pay11 (iblk m c 1 t) xs0 (iblk m c 2 t) xs1 xs1) (k0_pay14 (iblk m c 1 t) xs0 (iblk m c 2 t) xs1) xs3) := by
  unfold sout0_B_3
  rw [View.read_writes_eq_canon _ _ _ (scover0_B_3 m c t h0 xs0 xs1 xs2 xs3)]
  dsimp only [runB]
  unfold kernelRun0_B
  dsimp only
  sl_unfold_words
  rw [View.canon_unit_zero hz2]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

theorem outB_5_eq (h0 : ¬t.val % 2 = 0) (xs0 : Vec F S512x1024 .bf16) (xs1 xs2 : Vec F S512x1 .f32) (xs3 : Vec F S512x1024 .f32) :
    out0_B_5 m c t h0 xs0 xs1 xs2 xs3 = k0_pay3 (k0_pay1 (k0_pay8 (iblk m c 1 t)) (k0_pay11 (iblk m c 1 t) xs0 (iblk m c 2 t) xs1 xs1) (k0_pay14 (iblk m c 1 t) xs0 (iblk m c 2 t) xs1) xs3) (k0_pay13 (iblk m c 1 t) xs0 (iblk m c 2 t) xs1 xs1 xs2) (iblk m c 4 t) := by
  unfold out0_B_5
  rw [View.read_writes_eq_canon _ _ _ (cover0_B_5 m c t h0 xs0 xs1 xs2 xs3)]
  dsimp only [runB]
  unfold kernelRun0_B
  dsimp only
  sl_unfold_words
  rw [View.canon_unit_zero hz3]
  simp only [View.readAt_eq_ld, Memref.IsWhole.read_unread, rdS0, rdS1, rdS2, rdS3,
    View.readCov_unit_zero (S := S512x1024) _ hz2, View.readCov_unit_zero (S := S512x1) _ hz2,
    View.ld_unit_zero (S := S1x512x1024) hz3, View.ld_unit_zero (S := S1x1024x1024) hz3,
    View.ld_unit_zero (S := S1024x1024) hz2, View.ld_unit_zero (S := S512x1024) hz2, View.ld_unit_zero (S := S512x1) hz2]

end Cert.KernelIdeal.Hand

end
-- ==== Proof.Spec.lean ====
/-
  The mathematics of the certificate, over the reals, with every array a function of its coordinates.

  The program is one attention layer: a batch of 4 sequences of 2048 rows of width 1024. For batch `b` and query
  row `n` the query vector is `q = x[b,n,:] · Wqkᵀ`; the score of key row `j` is `q · x[b,j,:] / 32` (32 = √1024),
  replaced by the large negative number `negBig` where `mask[b,n,j] = 0`; the scores are normalised by a softmax
  over `j`; the attended vector is the softmax-weighted sum of the key rows, and the result is its image under `Wvcᵀ`.

  Two forms of the same result are stated. `GR` is the textbook one: subtract the row maximum, exponentiate, divide
  by the row sum, then weight the rows. `GK` is the two-tile "online" form: the 2048 keys are visited in two tiles
  of 1024; after the first tile one keeps its maximum `m0K`, its sum of exponentials `l0K` and its weighted row sum
  `a0K`; the second tile raises the maximum to `m1K`, rescales what was kept by `exp (m0K - m1K)` and adds its own
  terms; the quotient is taken once at the end. In `GK` the factor 1/32 multiplies the query vector before the
  scores are formed. That the two forms agree is `GK_eq_GR` (proved in Proof/Softmax.lean).
-/
import Idealize.ShloMosaic.PureOps.Ideal

noncomputable section

namespace Cert.Attn

open Idealize.ShloMosaic

/-- Key row `r` of key tile `k`: row `1024·k + r` of the 2048. -/
def jx (k : Fin 2) (r : Fin 1024) : Fin 2048 := ⟨k.val * 1024 + r.val, by have := k.isLt; have := r.isLt; omega⟩

/-- Query row `p` of query tile `qi`: row `512·qi + p` of the 2048. -/
def nx (qi : Fin 4) (p : Fin 512) : Fin 2048 := ⟨qi.val * 512 + p.val, by have := qi.isLt; have := p.isLt; omega⟩

/-- The score written where the mask is zero: the real number the 32-bit pattern `0xE0AD78EC` denotes,
    `-(11368684 · 2^43)`, about `-1e20`. Only its being a real number matters. -/
def negBig : ℝ := -(11368684 * 2 ^ 43)

variable (x : Fin 4 → Fin 2048 → Fin 1024 → ℝ) (mask : Fin 4 → Fin 2048 → Fin 2048 → BitVec 32)
  (Wqk Wvc : Fin 1024 → Fin 1024 → ℝ)

/-- The query vector of row `n`: `q[e] = ∑ d, x[b,n,d] · Wqk[e,d]`. -/
def qR (b : Fin 4) (n : Fin 2048) (e : Fin 1024) : ℝ := ∑ d, x b n d * Wqk e d

/-! ## The textbook form -/

/-- The masked score of key row `j`, the division by 32 applied to the finished inner product. -/
def sR (b : Fin 4) (n : Fin 2048) (j : Fin 2048) : ℝ :=
  if mask b n j = 0#32 then negBig else (∑ d, qR x Wqk b n d * x b j d) / 32

/-- The row maximum of the scores. -/
def mR (b : Fin 4) (n : Fin 2048) : ℝ := Finset.univ.sup' Finset.univ_nonempty (sR x mask Wqk b n)

/-- The row sum of the shifted exponentials. -/
def lR (b : Fin 4) (n : Fin 2048) : ℝ := ∑ j, Real.exp (sR x mask Wqk b n j - mR x mask Wqk b n)

/-- The attended vector: the key rows weighted by the softmax of the scores. -/
def attR (b : Fin 4) (n : Fin 2048) (d : Fin 1024) : ℝ :=
  ∑ j, Real.exp (sR x mask Wqk b n j - mR x mask Wqk b n) / lR x mask Wqk b n * x b j d

/-- The result, textbook form. -/
def GR (b : Fin 4) (n : Fin 2048) (e : Fin 1024) : ℝ := ∑ d, attR x mask Wqk b n d * Wvc e d

/-! ## The two-tile online form -/

/-- The masked score of key row `j`, the factor 1/32 applied to the query vector first. -/
def sK (b : Fin 4) (n : Fin 2048) (j : Fin 2048) : ℝ :=
  if mask b n j = 0#32 then negBig else ∑ d, (qR x Wqk b n d * (1 / 32)) * x b j d

/-- The maximum of the first tile's scores. -/
def m0K (b : Fin 4) (n : Fin 2048) : ℝ := Finset.univ.sup' Finset.univ_nonempty fun r => sK x mask Wqk b n (jx 0 r)

/-- The first tile's sum of exponentials, shifted by its own maximum. -/
def l0K (b : Fin 4) (n : Fin 2048) : ℝ := ∑ r, Real.exp (sK x mask Wqk b n (jx 0 r) - m0K x mask Wqk b n)

/-- The first tile's weighted sum of key rows. -/
def a0K (b : Fin 4) (n : Fin 2048) (d : Fin 1024) : ℝ :=
  ∑ r, Real.exp (sK x mask Wqk b n (jx 0 r) - m0K x mask Wqk b n) * x b (jx 0 r) d

/-- The maximum over both tiles. -/
def m1K (b : Fin 4) (n : Fin 2048) : ℝ :=
  max (m0K x mask Wqk b n) (Finset.univ.sup' Finset.univ_nonempty fun r => sK x mask Wqk b n (jx 1 r))

/-- The sum of exponentials after the second tile: the first tile's rescaled, plus the second tile's. -/
def l1K (b : Fin 4) (n : Fin 2048) : ℝ :=
  Real.exp (m0K x mask Wqk b n - m1K x mask Wqk b n) * l0K x mask Wqk b n
    + ∑ r, Real.exp (sK x mask Wqk b n (jx 1 r) - m1K x mask Wqk b n)

/-- The weighted sum of key rows after the second tile. -/
def a1K (b : Fin 4) (n : Fin 2048) (d : Fin 1024) : ℝ :=
  Real.exp (m0K x mask Wqk b n - m1K x mask Wqk b n) * a0K x mask Wqk b n d
    + ∑ r, Real.exp (sK x mask Wqk b n (jx 1 r) - m1K x mask Wqk b n) * x b (jx 1 r) d

/-- The result, online form: the quotient taken once, then the output projection. -/
def GK (b : Fin 4) (n : Fin 2048) (e : Fin 1024) : ℝ :=
  ∑ d, a1K x mask Wqk b n d / l1K x mask Wqk b n * Wvc e d

end Cert.Attn

end
-- ==== Proof.KI.Blocks.lean ====
/-
  The blocks the attention kernel's body is given at a grid point, as entries of the program's arrays. The 32 grid
  points are numbered with the key tile fastest: point `t` is batch `t / 8`, query tile `(t / 2) mod 4`, key tile
  `t mod 2`. At point `t` the query-row window holds rows `512·qi ‥ 512·qi + 511` of batch `b` of the converted `x`,
  the key-row window rows `1024·ki ‥ 1024·ki + 1023` of the same batch, the mask window the block of those query
  rows against those key rows, and the two weight windows the whole converted matrices. With floats read as exact
  numbers the host's conversions to the narrow format change nothing, so these are entries of `x`, `Wqk`, `Wvc`.
-/
import proofs.«419303_j30477087932642_3_alg».proof.Proof.KI.Data
import proofs.«419303_j30477087932642_3_alg».proof.Proof.Spec
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Attn

/-- The batch, query tile and key tile of grid point `t`. -/
def bOf (t : Fin cfg0.N) : Fin 4 := ⟨t.val / 8, by have := lt_of_lt_of_eq t.isLt (show cfg0.N = 32 from N_0); omega⟩
def qOf (t : Fin cfg0.N) : Fin 4 := ⟨t.val / 2 % 4, by omega⟩
def kOf (t : Fin cfg0.N) : Fin 2 := ⟨t.val % 2, by omega⟩

/-! ## The windows' block indices over the grid -/

/-- The query-row window's block index at point `t`: batch `t / 8`, query tile `(t / 2) mod 4`, the whole width. -/
theorem idx0_0 : ∀ t : Fin cfg0.N, win0_0.index t (0 : Fin 3) = t.val / 8 ∧ win0_0.index t (1 : Fin 3) = t.val / 2 % 4
    ∧ win0_0.index t (2 : Fin 3) = 0 :=
  (by decide +kernel : ∀ t : Fin grid0.N, _)

/-- The key-row window's: batch `t / 8`, key tile `t mod 2`, the whole width. -/
theorem idx0_1 : ∀ t : Fin cfg0.N, win0_1.index t (0 : Fin 3) = t.val / 8 ∧ win0_1.index t (1 : Fin 3) = t.val % 2
    ∧ win0_1.index t (2 : Fin 3) = 0 :=
  (by decide +kernel : ∀ t : Fin grid0.N, _)

/-- The mask window's: batch `t / 8`, query tile `(t / 2) mod 4`, key tile `t mod 2`. -/
theorem idx0_2 : ∀ t : Fin cfg0.N, win0_2.index t (0 : Fin 3) = t.val / 8 ∧ win0_2.index t (1 : Fin 3) = t.val / 2 % 4
    ∧ win0_2.index t (2 : Fin 3) = t.val % 2 :=
  (by decide +kernel : ∀ t : Fin grid0.N, _)

/-- The two weight windows hold their whole matrices at every point. -/
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)

variable (c : Dev nD) (t : Fin cfg0.N)

/-! ## The windows' blocks, at any float instance -/

theorem iblk0_apply (p : Fin 512) (d : Fin 1024) :
    iblk m c 0 t (ix3 (0 : Fin 1) p d) = V m c main_v0 (ix3 (bOf t) (nx (qOf t) p) d) := by
  obtain ⟨e0, e1, e2⟩ := idx0_0 t
  show V m c main_v0 (((cfg0.win 0).blk t).view.emb (ix3 (0 : Fin 1) p d)) = V m c main_v0 _
  refine congrArg (V m c main_v0) (funext fun a => Fin.ext ?_)
  match a with
  | ⟨0, _⟩ => show win0_0.index t (0 : Fin 3) * 1 + 1 * (0 : Fin 1).val = t.val / 8; rw [e0]; show t.val / 8 * 1 + 1 * 0 = t.val / 8; omega
  | ⟨1, _⟩ => show win0_0.index t (1 : Fin 3) * 512 + 1 * p.val = (t.val / 2 % 4) * 512 + p.val; rw [e1]; omega
  | ⟨2, _⟩ => show win0_0.index t (2 : Fin 3) * 1024 + 1 * d.val = d.val; rw [e2]; omega

theorem iblk1_apply (r : Fin 1024) (d : Fin 1024) :
    iblk m c 1 t (ix3 (0 : Fin 1) r d) = V m c main_v0 (ix3 (bOf t) (jx (kOf t) r) d) := by
  obtain ⟨e0, e1, e2⟩ := idx0_1 t
  show V m c main_v0 (((cfg0.win 1).blk t).view.emb (ix3 (0 : Fin 1) r d)) = V m c main_v0 _
  refine congrArg (V m c main_v0) (funext fun a => Fin.ext ?_)
  match a with
  | ⟨0, _⟩ => show win0_1.index t (0 : Fin 3) * 1 + 1 * (0 : Fin 1).val = t.val / 8; rw [e0]; show t.val / 8 * 1 + 1 * 0 = t.val / 8; omega
  | ⟨1, _⟩ => show win0_1.index t (1 : Fin 3) * 1024 + 1 * r.val = (t.val % 2) * 1024 + r.val; rw [e1]; omega
  | ⟨2, _⟩ => show win0_1.index t (2 : Fin 3) * 1024 + 1 * d.val = d.val; rw [e2]; omega

theorem iblk2_apply (p : Fin 512) (r : Fin 1024) :
    iblk m c 2 t (ix3 (0 : Fin 1) p r) = V m c main_arg1 (ix3 (bOf t) (nx (qOf t) p) (jx (kOf t) r)) := by
  obtain ⟨e0, e1, e2⟩ := idx0_2 t
  show V m c main_arg1 (((cfg0.win 2).blk t).view.emb (ix3 (0 : Fin 1) p r)) = V m c main_arg1 _
  refine congrArg (V m c main_arg1) (funext fun a => Fin.ext ?_)
  match a with
  | ⟨0, _⟩ => show win0_2.index t (0 : Fin 3) * 1 + 1 * (0 : Fin 1).val = t.val / 8; rw [e0]; show t.val / 8 * 1 + 1 * 0 = t.val / 8; omega
  | ⟨1, _⟩ => show win0_2.index t (1 : Fin 3) * 512 + 1 * p.val = (t.val / 2 % 4) * 512 + p.val; rw [e1]; omega
  | ⟨2, _⟩ => show win0_2.index t (2 : Fin 3) * 1024 + 1 * r.val = (t.val % 2) * 1024 + r.val; rw [e2]; omega

theorem iblk3_apply (e d : Fin 1024) : iblk m c 3 t (ix2 e d) = V m c main_v1 (ix2 e d) := by
  obtain ⟨e0, e1⟩ := idx0_3 t
  show V m c main_v1 (((cfg0.win 3).blk t).view.emb (ix2 e d)) = V m c main_v1 _
  refine congrArg (V m c main_v1) (funext fun a => Fin.ext ?_)
  match a with
  | ⟨0, _⟩ => show win0_3.index t (0 : Fin 2) * 1024 + 1 * e.val = e.val; rw [e0]; omega
  | ⟨1, _⟩ => show win0_3.index t (1 : Fin 2) * 1024 + 1 * d.val = d.val; rw [e1]; omega

theorem iblk4_apply (e d : Fin 1024) : iblk m c 4 t (ix2 e d) = V m c main_v2 (ix2 e d) := by
  obtain ⟨e0, e1⟩ := idx0_4 t
  show V m c main_v2 (((cfg0.win 4).blk t).view.emb (ix2 e d)) = V m c main_v2 _
  refine congrArg (V m c main_v2) (funext fun a => Fin.ext ?_)
  match a with
  | ⟨0, _⟩ => show win0_4.index t (0 : Fin 2) * 1024 + 1 * e.val = e.val; rw [e0]; omega
  | ⟨1, _⟩ => show win0_4.index t (1 : Fin 2) * 1024 + 1 * d.val = d.val; rw [e1]; omega

end Cert.KernelIdeal.Hand

namespace Cert.KernelIdeal.Hand

open Idealize.ShloMosaic Idealize.ShloMosaic.TcCoe Idealize.SL.Sem Cert.KernelIdeal Cert.KernelIdeal.Gen

/-! ## The host conversions, floats read as exact numbers -/

variable (m : (ℓ : Loc nD τ sig) → Buf (Elt Ideal) ℓ) (c : Dev nD)

theorem V_main_v0 (i : S4x2048x1024.Idx) : V (F := Ideal) m c main_v0 i = m ((c : Thread nD τ).loc main_arg0) i := by
  have e : (V (F := Ideal) m c main_v0 : S4x2048x1024.Idx → EReal) = m ((c : Thread nD τ).loc main_arg0) := by
    dsimp only [V]
    simp only [hostOps0, List.flatten_cons, List.flatten_nil, List.append_nil, List.cons_append, List.nil_append]
    after_results
    rfl
  exact congrFun e i

theorem V_main_v1 (i : S1024x1024.Idx) : V (F := Ideal) m c main_v1 i = m ((c : Thread nD τ).loc main_arg2) i := by
  have e : (V (F := Ideal) m c main_v1 : S1024x1024.Idx → EReal) = m ((c : Thread nD τ).loc main_arg2) := by
    dsimp only [V]
    simp only [hostOps0, List.flatten_cons, List.flatten_nil, List.append_nil, List.cons_append, List.nil_append]
    after_results
    rfl
  exact congrFun e i

theorem V_main_v2 (i : S1024x1024.Idx) : V (F := Ideal) m c main_v2 i = m ((c : Thread nD τ).loc main_arg3) i := by
  have e : (V (F := Ideal) m c main_v2 : S1024x1024.Idx → EReal) = m ((c : Thread nD τ).loc main_arg3) := by
    dsimp only [V]
    simp only [hostOps0, List.flatten_cons, List.flatten_nil, List.append_nil, List.cons_append, List.nil_append]
    after_results
    rfl
  exact congrFun e i

end Cert.KernelIdeal.Hand

end
-- ==== Proof.Consts.lean ====
/-
  The float constants the two programs spell, as the extended reals their 32-bit patterns denote when floats are
  read as exact numbers: zero, 1/32 (the kernel's scale, 1/√1024), 1024 and 1/2 (from which the reference computes
  √1024 as a power), minus infinity (the running maximum's initial value and the maximum reductions' unit), and the
  large negative fill written where the mask is zero.
-/
import Idealize.ShloMosaic.PureOps.Ideal
import proofs.«419303_j30477087932642_3_alg».proof.Proof.Spec

noncomputable section

namespace Cert.Attn

open Idealize.ShloMosaic

theorem ofBits_zero : Ideal.ofBits .f32 0x00000000#32 = 0 := by
  simp [Ideal.ofBits, Ideal.ieee]

theorem ofBits_inv32 : Ideal.ofBits .f32 0x3D000000#32 = ((1 / 32 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem ofBits_negBig : Ideal.ofBits .f32 0xE0AD78EC#32 = ((negBig : ℝ) : EReal) := by
  simp [Ideal.ofBits, Ideal.ieee, negBig, -EReal.coe_mul]

end Cert.Attn

end
-- ==== Proof.Lift.lean ====
/-
  Extended reals that are real numbers: how the exact-float operations act on them. A finite sum, a maximum, an
  exponential, a quotient by a nonzero number and the square root of 1024 taken as a power, each applied to real
  numbers read as extended reals, is the real operation's result read as an extended real; a maximum taken from
  minus infinity over a nonempty finite family is the family's real maximum; and the exponential of minus infinity
  less a real number is zero.
-/
import Idealize.ShloMosaic.PureOps.Ideal
import proofs.«419303_j30477087932642_3_alg».proof.Proof.Spec

noncomputable section

namespace Cert.Attn

open Idealize.ShloMosaic

/-- A finite sum of reals, read as an extended real, is the sum of the terms so read. -/
theorem coe_sum {ι : Type} (s : Finset ι) (f : ι → ℝ) :
    (((∑ i ∈ s, f i : ℝ)) : EReal) = ∑ i ∈ s, ((f i : ℝ) : EReal) := by
  classical
  refine Finset.induction_on s ?_ ?_
  · simp
  · intro a t ha ih
    rw [Finset.sum_insert ha, Finset.sum_insert ha, EReal.coe_add, ih]

/-- The fold of `max` from minus infinity over a nonempty family of reals is the family's maximum. -/
theorem fold_max_coe {n : ℕ} [NeZero n] (f : Fin n → ℝ) :
    (Finset.univ : Finset (Fin n)).fold max (⊥ : EReal) (fun k => ((f k : ℝ) : EReal))
      = ((Finset.univ.sup' Finset.univ_nonempty f : ℝ) : EReal) := by
  apply le_antisymm
  · -- every term, and minus infinity, lies below the maximum
    rw [Finset.fold_max_le]
    refine ⟨bot_le, fun k hk => ?_⟩
    exact EReal.coe_le_coe_iff.mpr (Finset.le_sup' f hk)
  · -- the maximum is attained at some index
    obtain ⟨i, hi, h⟩ := Finset.exists_mem_eq_sup' (Finset.univ_nonempty (α := Fin n)) f
    rw [Finset.le_fold_max]
    exact Or.inr ⟨i, hi, by rw [h]⟩

/-- The maximum of two reals. -/
theorem max_coe (a b : ℝ) : max ((a : ℝ) : EReal) ((b : ℝ) : EReal) = ((max a b : ℝ) : EReal) := by
  exact (EReal.coe_strictMono.monotone.map_max).symm

/-- Minus infinity is the unit of the maximum. -/
theorem max_bot_coe (a : ℝ) : max (⊥ : EReal) ((a : ℝ) : EReal) = ((a : ℝ) : EReal) := by
  exact max_eq_right bot_le

/-- The exponential of a real. -/
theorem exp_coe (r : ℝ) : Ideal.exp ((r : ℝ) : EReal) = ((Real.exp r : ℝ) : EReal) := by
  exact Ideal.exp_coe r

/-- Minus infinity less a real is minus infinity, whose exponential is zero. -/
theorem exp_bot_sub (r : ℝ) : Ideal.exp ((⊥ : EReal) - ((r : ℝ) : EReal)) = 0 := by
  rw [EReal.bot_sub, Ideal.exp_bot]

/-- The quotient of two reals, the divisor nonzero. -/
theorem div_coe_coe (a b : ℝ) (hb : b ≠ 0) : Ideal.div ((a : ℝ) : EReal) ((b : ℝ) : EReal) = ((a / b : ℝ) : EReal) := by
  rw [Ideal.div_coe hb, ← EReal.coe_mul, mul_one_div]

/-- 1024 to the power one half is 32. -/
theorem pow_1024_half : Ideal.pow (((1024 : ℝ)) : EReal) (((1 / 2 : ℝ)) : EReal) = (((32 : ℝ)) : EReal) := by
  rw [Ideal.pow_coe_coe]
  congr 1
  -- 1024 = 32², and (32²)^(1/2) = 32^(2·(1/2)) = 32
  show (1024 : ℝ) ^ ((1 / 2 : ℝ)) = 32
  rw [show (1024 : ℝ) = (32 : ℝ) ^ (2 : ℝ) by norm_num, ← Real.rpow_mul (by norm_num)]
  norm_num

end Cert.Attn

end
-- ==== Proof.KScores.lean ====
/-
  The kernel body's first two values at one grid point, read at an index over the reals. At the point of batch
  `b`, query tile `qi` and key tile `ki` the body holds the query tile's rows of `x`, the key tile's rows of `x`,
  the mask's block and the two weight matrices. From the query rows and `Wqk` it forms the scaled query block
  `q·(1/32)` (kept from the first key tile on), and from that block, the key rows and the mask the block of masked
  scores: entry `(p, r)` is the score `sK` of query row `512·qi + p` against key row `1024·ki + r`.
-/
import proofs.«419303_j30477087932642_3_alg».proof.Proof.Gen.KernelIdeal.Skeleton
import proofs.«419303_j30477087932642_3_alg».proof.Proof.Spec
import proofs.«419303_j30477087932642_3_alg».proof.Proof.Consts
import proofs.«419303_j30477087932642_3_alg».proof.Proof.Lift
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Attn

/-! ## The contraction of axis 1 with axis 1: operand coordinates at an output index -/

/-- The left operand's row is the output's row. -/
theorem lhs11_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The left operand's column is the summation index. -/
theorem lhs11_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's row is the output's column. -/
theorem rhs11_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The right operand's column is the summation index. -/
theorem rhs11_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A product contracting axis 1 with axis 1, accumulated from zero: `out[p,e] = ∑ k, lhs[p,k] · rhs[e,k]`. -/
theorem matmul11_apply (a : FVec Ideal S512x1024 .bf16) (c : FVec Ideal S1024x1024 .bf16) (p : Fin 512) (e : Fin 1024) :
    matmul dot_S512x1024_S1024x1024_S512x1024_1_1_0_0_n_n none a c (constant (F := Ideal) S512x1024 .f32 0x00000000#32) (ix2 p e)
      = ∑ k : Fin 1024, a (ix2 p k) * c (ix2 e k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p e) ((ValueIdx.contrEquiv1 dot_S512x1024_S1024x1024_S512x1024_1_1_0_0_n_n 1024 rfl rfl).symm k) = ix2 p k := funext fun a => Fin.ext (by
    match a with
    | ⟨0, _⟩ => exact lhs11_0 _ _
    | ⟨1, _⟩ => exact (lhs11_1 _ _).trans hk)
  have er : dot_S512x1024_S1024x1024_S512x1024_1_1_0_0_n_n.rhsIdx (ix2 p e) ((ValueIdx.contrEquiv1 dot_S512x1024_S1024x1024_S512x1024_1_1_0_0_n_n 1024 rfl rfl).symm k) = ix2 e k := funext fun a => Fin.ext (by
    match a with
    | ⟨0, _⟩ => exact rhs11_0 _ _
    | ⟨1, _⟩ => exact (rhs11_1 _ _).trans hk)
  rw [el, er]

variable (xr : Fin 4 → Fin 2048 → Fin 1024 → ℝ) (mk : Fin 4 → Fin 2048 → Fin 2048 → BitVec 32)
  (wq wv : Fin 1024 → Fin 1024 → ℝ) (b : Fin 4) (qi : Fin 4)

/-- The scaled query block: entry `(p, e)` is `(∑ d, x[b, 512·qi+p, d] · Wqk[e, d]) · (1/32)`. -/
theorem pay4_apply (x3 : Vec Ideal S1x512x1024 .bf16) (x6 : Vec Ideal S1024x1024 .bf16)
    (h3 : ∀ (p : Fin 512) (d : Fin 1024), x3 (ix3 (0 : Fin 1) p d) = ((xr b (nx qi p) d : ℝ) : EReal))
    (h6 : ∀ (e d : Fin 1024), x6 (ix2 e d) = ((wq e d : ℝ) : EReal))
    (p : Fin 512) (e : Fin 1024) :
    k0_pay4 (F := Ideal) x3 x6 (ix2 p e) = ((qR xr wq b (nx qi p) e * (1 / 32) : ℝ) : EReal) := by
  unfold k0_pay4
  simp only [shapeCast_self]
  show matmul dot_S512x1024_S1024x1024_S512x1024_1_1_0_0_n_n none (shapeCast S512x1024 x3 shapeCasts_S1x512x1024_S512x1024) x6
      (constant (F := Ideal) S512x1024 .f32 0x00000000#32) (ix2 p e) * Ideal.ofBits .f32 0x3D000000#32 = _
  rw [matmul11_apply, ofBits_inv32]
  simp only [shapeCast_1ab_ab_apply, h3, h6]
  unfold qR
  rw [EReal.coe_mul, coe_sum]
  simp only [EReal.coe_mul]

/-- The masked scores of key tile `ki`: entry `(p, r)` is `sK` of query row `512·qi+p` and key row `1024·ki+r`. -/
theorem pay9_apply (ki : Fin 2) (x4 : Vec Ideal S1x1024x1024 .bf16) (s9 : Vec Ideal S512x1024 .bf16) (x5 : Vec Ideal S1x512x1024 .i32)
    (h4 : ∀ (r : Fin 1024) (d : Fin 1024), x4 (ix3 (0 : Fin 1) r d) = ((xr b (jx ki r) d : ℝ) : EReal))
    (h9 : ∀ (p : Fin 512) (d : Fin 1024), s9 (ix2 p d) = ((qR xr wq b (nx qi p) d * (1 / 32) : ℝ) : EReal))
    (h5 : ∀ (p : Fin 512) (r : Fin 1024), x5 (ix3 (0 : Fin 1) p r) = mk b (nx qi p) (jx ki r))
    (p : Fin 512) (r : Fin 1024) :
    k0_pay9 (F := Ideal) x4 s9 x5 (ix2 p r) = ((sK xr mk wq b (nx qi p) (jx ki r) : ℝ) : EReal) := by
  unfold k0_pay9 k0_pay8
  show Scalar.select (IntOp.cmpi .eq (shapeCast S512x1024 x5 shapeCasts_S1x512x1024_S512x1024 (ix2 p r)) 0#32)
      (Ideal.ofBits .f32 0xE0AD78EC#32)
      (matmul dot_S512x1024_S1024x1024_S512x1024_1_1_0_0_n_n none s9 (shapeCast S1024x1024 x4 shapeCasts_S1x1024x1024_S1024x1024)
        (constant (F := Ideal) S512x1024 .f32 0x00000000#32) (ix2 p r)) = _
  rw [shapeCast_1ab_ab_apply x5 _ p r, h5, matmul11_apply]
  unfold sK
  by_cases hm : mk b (nx qi p) (jx ki r) = 0#32
  · have hc : IntOp.cmpi .eq (mk b (nx qi p) (jx ki r)) 0#32 = 1#1 := by simp [IntOp.cmpi, hm]
    rw [hc, select_one, if_pos hm, ofBits_negBig]
  · have hc : IntOp.cmpi .eq (mk b (nx qi p) (jx ki r)) 0#32 = 0#1 := by
      show BitVec.ofBool (mk b (nx qi p) (jx ki r) == 0#32) = 0#1
      rw [beq_eq_false_iff_ne.mpr hm]
      rfl
    rw [hc, select_zero, if_neg hm, coe_sum]
    simp only [shapeCast_1ab_ab_apply, h9, h4, EReal.coe_mul]

/-- The key tile's rows as the matrix the weighted row sum is taken against: entry `(r, d)` is `x[b, 1024·ki+r, d]`. -/
theorem pay8_apply (ki : Fin 2) (x4 : Vec Ideal S1x1024x1024 .bf16)
    (h4 : ∀ (r : Fin 1024) (d : Fin 1024), x4 (ix3 (0 : Fin 1) r d) = ((xr b (jx ki r) d : ℝ) : EReal))
    (r : Fin 1024) (d : Fin 1024) :
    k0_pay8 (F := Ideal) x4 (ix2 r d) = ((xr b (jx ki r) d : ℝ) : EReal) := by
  unfold k0_pay8
  exact (shapeCast_1ab_ab_apply x4 shapeCasts_S1x1024x1024_S1024x1024 r d).trans (h4 r d)

end Cert.KernelIdeal.Val

end
-- ==== Proof.KFirst.lean ====
/-
  The first key tile's step of the online softmax at one grid point, read at an index over the reals. The running
  maximum starts at minus infinity, the running sum and the running weighted row sum at zero; after the step the
  three hold, for query row `512·qi + p`: the first tile's maximum `m0K`, its sum of shifted exponentials `l0K`, and
  its weighted sum of key rows `a0K` (the rescaling factor is the exponential of minus infinity, zero, times zero).
-/
import proofs.«419303_j30477087932642_3_alg».proof.Proof.Gen.KernelIdeal.Skeleton
import proofs.«419303_j30477087932642_3_alg».proof.Proof.Spec
import proofs.«419303_j30477087932642_3_alg».proof.Proof.Consts
import proofs.«419303_j30477087932642_3_alg».proof.Proof.Lift
import proofs.«419303_j30477087932642_3_alg».proof.Proof.KScores
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Attn

namespace First

/-! ## Two layout operations at an index: a column made of a vector, and a column spread over the lanes -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a `512 × 1024` block at a row -/

/-- The index the reduction inserts: row `p`, lane `r`. -/
theorem lift_ix (p : Fin 512) (r : Fin 1024) :
    reduces_S512x1024_S512.lift (ix1 p) r = ix2 p r :=
  funext fun a => Fin.ext (by
    match a with
    | ⟨0, _⟩ => rfl
    | ⟨1, _⟩ => rfl)

/-- The lane maximum from minus infinity at row `p`: the fold of `max` over the row's 1024 entries. -/
theorem rowMax_apply (v : FVec Ideal S512x1024 .f32) (p : Fin 512) :
    multiReduction (F := Ideal) .maximumf [1] S512 v 0xFF800000#32 reduces_S512x1024_S512 (.inl rfl) rfl (ix1 p)
      = (Finset.univ : Finset (Fin 1024)).fold max (⊥ : EReal) (fun r => v (ix2 p r)) := by
  refine (Ideal.multiReduction_maximumf_single v _ reduces_S512x1024_S512 (.inl rfl) rfl (ix1 p)).trans ?_
  show (Finset.univ : Finset (Fin 1024)).fold max (Ideal.ofBits .f32 0xFF800000#32) (fun r => v (reduces_S512x1024_S512.lift (ix1 p) r)) = _
  rw [ofBits_negInf]
  exact congrArg (fun f => (Finset.univ : Finset (Fin 1024)).fold max (⊥ : EReal) f) (funext fun r => congrArg v (lift_ix p r))

/-- The lane sum at row `p`: the sum of the row's 1024 entries. -/
theorem rowSum_apply (v : FVec Ideal S512x1024 .f32) (p : Fin 512) :
    multiReduction (F := Ideal) .add [1] S512 v 0x00000000#32 reduces_S512x1024_S512 (.inl rfl) rfl (ix1 p)
      = ∑ r : Fin 1024, v (ix2 p r) := by
  refine (Ideal.multiReduction_add_single v _ reduces_S512x1024_S512 (.inl rfl) rfl (ix1 p)).trans ?_
  show ∑ r : Fin 1024, v (reduces_S512x1024_S512.lift (ix1 p) r) = _
  exact Finset.sum_congr rfl fun r _ => congrArg v (lift_ix p r)

/-! ## The product of a `512 × 1024` block with a `1024 × 1024` matrix: the first's second axis contracted with the second's first -/

/-- The four coordinates of the two operand indices at output index `i` and contraction index `q`: the left operand is
    read at `(i 0, q)`, the right one at `(q, i 1)`. -/
theorem lhs_wsum_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's second coordinate is the contraction index. -/
theorem lhs_wsum_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's first coordinate is the contraction index. -/
theorem rhs_wsum_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's second coordinate is the output's second. -/
theorem rhs_wsum_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator at `(p, d)`: `∑ r, lhs[p, r] · rhs[r, d]`. -/
theorem wsum_apply (lhs : FVec Ideal S512x1024 .bf16) (rhs : FVec Ideal S1024x1024 .bf16) (p : Fin 512) (d : Fin 1024) :
    matmul (F := Ideal) dot_S512x1024_S1024x1024_S512x1024_1_0_0_1_n_n none lhs rhs (constant (F := Ideal) S512x1024 .f32 0x00000000#32) (ix2 p d)
      = ∑ r : Fin 1024, lhs (ix2 p r) * rhs (ix2 r d) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p d) ((ValueIdx.contrEquiv1 dot_S512x1024_S1024x1024_S512x1024_1_0_0_1_n_n 1024 rfl rfl).symm k) = ix2 p k := funext fun a => Fin.ext (by
    match a with
    | ⟨0, _⟩ => exact lhs_wsum_0 _ _
    | ⟨1, _⟩ => exact (lhs_wsum_1 _ _).trans hk)
  have er : dot_S512x1024_S1024x1024_S512x1024_1_0_0_1_n_n.rhsIdx (ix2 p d) ((ValueIdx.contrEquiv1 dot_S512x1024_S1024x1024_S512x1024_1_0_0_1_n_n 1024 rfl rfl).symm k) = ix2 k d := funext fun a => Fin.ext (by
    match a with
    | ⟨0, _⟩ => exact (rhs_wsum_0 _ _).trans hk
    | ⟨1, _⟩ => exact rhs_wsum_1 _ _)
  rw [el, er]

/-! ## The running maximum's initial value at an index -/

/-- The running maximum's initial value: minus infinity everywhere. -/
theorem pay5_apply (i : S512x1.Idx) : k0_pay5 (F := Ideal) i = (⊥ : EReal) := by
  unfold k0_pay5
  simp only [shapeCast_self]
  exact ofBits_negInf

end First

/-! ## The first tile's step -/

variable (xr : Fin 4 → Fin 2048 → Fin 1024 → ℝ) (mk : Fin 4 → Fin 2048 → Fin 2048 → BitVec 32)
  (wq wv : Fin 1024 → Fin 1024 → ℝ) (b : Fin 4) (qi : Fin 4)
  (x4 : Vec Ideal S1x1024x1024 .bf16) (s9 : Vec Ideal S512x1024 .bf16) (x5 : Vec Ideal S1x512x1024 .i32)
  (h4 : ∀ (r : Fin 1024) (d : Fin 1024), x4 (ix3 (0 : Fin 1) r d) = ((xr b (jx 0 r) d : ℝ) : EReal))
  (h9 : ∀ (p : Fin 512) (d : Fin 1024), s9 (ix2 p d) = ((qR xr wq b (nx qi p) d * (1 / 32) : ℝ) : EReal))
  (h5 : ∀ (p : Fin 512) (r : Fin 1024), x5 (ix3 (0 : Fin 1) p r) = mk b (nx qi p) (jx 0 r))

include h4 h9 h5

namespace First

/-- The new running maximum at row `p`: the larger of what was kept and the first tile's maximum. -/
theorem pay10_apply (v13 : Vec Ideal S512x1 .f32) (p : Fin 512) :
    k0_pay10 (F := Ideal) x4 s9 x5 v13 (ix2 p (0 : Fin 1))
      = max (v13 (ix2 p (0 : Fin 1))) ((m0K xr mk wq b (nx qi p) : ℝ) : EReal) := by
  unfold k0_pay10
  show max (v13 (ix2 p (0 : Fin 1))) (shapeCast S512x1 (multiReduction (F := Ideal) .maximumf [1] S512 (k0_pay9 (F := Ideal) x4 s9 x5) 0xFF800000#32 reduces_S512x1024_S512 (.inl rfl) rfl) shapeCasts_S512_S512x1 (ix2 p (0 : Fin 1))) = _
  refine congrArg (max (v13 (ix2 p (0 : Fin 1)))) ?_
  refine (shapeCast_a_a1_apply _ shapeCasts_S512_S512x1 p 0).trans ?_
  refine (rowMax_apply _ p).trans ?_
  have e : (fun r => k0_pay9 (F := Ideal) x4 s9 x5 (ix2 p r)) = fun r => ((sK xr mk wq b (nx qi p) (jx 0 r) : ℝ) : EReal) :=
    funext fun r => pay9_apply xr mk wq b qi 0 x4 s9 x5 h4 h9 h5 p r
  rw [e, fold_max_coe]
  rfl

/-- From minus infinity the new running maximum is the first tile's maximum. -/
theorem pay10_first (p : Fin 512) :
    k0_pay10 (F := Ideal) x4 s9 x5 (k0_pay5 (F := Ideal)) (ix2 p (0 : Fin 1)) = ((m0K xr mk wq b (nx qi p) : ℝ) : EReal) := by
  rw [pay10_apply xr mk wq b qi x4 s9 x5 h4 h9 h5, pay5_apply, max_bot_coe]

/-- The rescaling factor of what was kept: the exponential of minus infinity, zero. -/
theorem pay11_first (p : Fin 512) :
    k0_pay11 (F := Ideal) x4 s9 x5 (k0_pay5 (F := Ideal)) (k0_pay5 (F := Ideal)) (ix2 p (0 : Fin 1)) = 0 := by
  unfold k0_pay11
  show Ideal.exp (k0_pay5 (F := Ideal) (ix2 p (0 : Fin 1)) - k0_pay10 (F := Ideal) x4 s9 x5 (k0_pay5 (F := Ideal)) (ix2 p (0 : Fin 1))) = 0
  rw [pay10_first xr mk wq b qi x4 s9 x5 h4 h9 h5, pay5_apply, exp_bot_sub]

/-- The first tile's shifted exponentials: entry `(p, r)` is `exp (s(r) - m0K)`. -/
theorem pay12_first (p : Fin 512) (r : Fin 1024) :
    k0_pay12 (F := Ideal) x4 s9 x5 (k0_pay5 (F := Ideal)) (ix2 p r)
      = ((Real.exp (sK xr mk wq b (nx qi p) (jx 0 r) - m0K xr mk wq b (nx qi p)) : ℝ) : EReal) := by
  unfold k0_pay12
  show Ideal.exp (k0_pay9 (F := Ideal) x4 s9 x5 (ix2 p r) - broadcastTo S512x1024 (k0_pay10 (F := Ideal) x4 s9 x5 (k0_pay5 (F := Ideal))) broadcasts_S512x1_S512x1024 (ix2 p r)) = _
  rw [broadcastTo_a1_ab_apply, pay10_first xr mk wq b qi x4 s9 x5 h4 h9 h5, pay9_apply xr mk wq b qi 0 x4 s9 x5 h4 h9 h5,
    ← EReal.coe_sub, exp_coe]

/-- The same entries as the left factor of the weighted row sum. -/
theorem pay14_first (p : Fin 512) (r : Fin 1024) :
    k0_pay14 (F := Ideal) x4 s9 x5 (k0_pay5 (F := Ideal)) (ix2 p r)
      = ((Real.exp (sK xr mk wq b (nx qi p) (jx 0 r) - m0K xr mk wq b (nx qi p)) : ℝ) : EReal) := by
  unfold k0_pay14
  exact pay12_first xr mk wq b qi x4 s9 x5 h4 h9 h5 p r

end First

open First

/-- The running maximum after the first tile. -/
theorem first_m (p : Fin 512) :
    k0_pay2 (F := Ideal) (k0_pay10 x4 s9 x5 (k0_pay5 (F := Ideal))) (ix2 p (0 : Fin 1))
      = ((m0K xr mk wq b (nx qi p) : ℝ) : EReal) := by
  unfold k0_pay2
  simp only [shapeCast_self]
  exact pay10_first xr mk wq b qi x4 s9 x5 h4 h9 h5 p

/-- The running sum after the first tile. -/
theorem first_l (p : Fin 512) :
    k0_pay13 (F := Ideal) x4 s9 x5 (k0_pay5 (F := Ideal)) (k0_pay5 (F := Ideal)) (k0_pay6 (F := Ideal)) (ix2 p (0 : Fin 1))
      = ((l0K xr mk wq b (nx qi p) : ℝ) : EReal) := by
  unfold k0_pay13
  simp only [shapeCast_self]
  show k0_pay11 (F := Ideal) x4 s9 x5 (k0_pay5 (F := Ideal)) (k0_pay5 (F := Ideal)) (ix2 p (0 : Fin 1)) * k0_pay6 (F := Ideal) (ix2 p (0 : Fin 1))
      + shapeCast S512x1 (multiReduction (F := Ideal) .add [1] S512 (k0_pay12 (F := Ideal) x4 s9 x5 (k0_pay5 (F := Ideal))) 0x00000000#32 reduces_S512x1024_S512 (.inl rfl) rfl) shapeCasts_S512_S512x1 (ix2 p (0 : Fin 1)) = _
  rw [pay11_first xr mk wq b qi x4 s9 x5 h4 h9 h5, zero_mul, zero_add, shapeCast_a_a1_apply, rowSum_apply]
  unfold l0K
  rw [coe_sum]
  exact Finset.sum_congr rfl fun r _ => pay12_first xr mk wq b qi x4 s9 x5 h4 h9 h5 p r

/-- The running weighted row sum after the first tile. -/
theorem first_acc (p : Fin 512) (d : Fin 1024) :
    k0_pay1 (F := Ideal) (k0_pay8 x4) (k0_pay11 x4 s9 x5 (k0_pay5 (F := Ideal)) (k0_pay5 (F := Ideal)))
        (k0_pay14 x4 s9 x5 (k0_pay5 (F := Ideal))) (k0_pay7 (F := Ideal)) (ix2 p d)
      = ((a0K xr mk wq b (nx qi p) d : ℝ) : EReal) := by
  unfold k0_pay1
  simp only [shapeCast_self]
  show broadcastTo S512x1024 (k0_pay11 (F := Ideal) x4 s9 x5 (k0_pay5 (F := Ideal)) (k0_pay5 (F := Ideal))) broadcasts_S512x1_S512x1024 (ix2 p d) * k0_pay7 (F := Ideal) (ix2 p d)
      + matmul (F := Ideal) dot_S512x1024_S1024x1024_S512x1024_1_0_0_1_n_n none (k0_pay14 (F := Ideal) x4 s9 x5 (k0_pay5 (F := Ideal))) (k0_pay8 (F := Ideal) x4) (constant (F := Ideal) S512x1024 .f32 0x00000000#32) (ix2 p d) = _
  rw [broadcastTo_a1_ab_apply, pay11_first xr mk wq b qi x4 s9 x5 h4 h9 h5, zero_mul, zero_add, wsum_apply]
  unfold a0K
  rw [coe_sum]
  refine Finset.sum_congr rfl fun r _ => ?_
  rw [pay14_first xr mk wq b qi x4 s9 x5 h4 h9 h5, pay8_apply xr b 0 x4 h4, ← EReal.coe_mul]

end Cert.KernelIdeal.Val

end
-- ==== Proof.Softmax.lean ====
/-
  The two-tile online softmax agrees with the textbook softmax, over the reals, for one query row.

  Fix a row of 2048 real scores `s` and 2048 real weights `v`. The keys split into two tiles of 1024:
  key `j` is either `jx 0 r` or `jx 1 r` for a unique `r < 1024`. Hence a sum over the 2048 keys is the sum of the
  two tile sums, and the maximum over the 2048 keys is the larger of the two tile maxima. Writing `m0` for the first
  tile's maximum and `m1` for the overall maximum, `exp (m0 - m1) * exp (s - m0) = exp (s - m1)`, so rescaling the
  first tile's partial sums by `exp (m0 - m1)` and adding the second tile's terms gives the full sums shifted by
  the overall maximum. The factor 1/32 may be applied to the query vector before the inner product or to the
  finished inner product. The sum of the shifted exponentials is positive, and dividing a weighted sum by it is the
  weighted sum of the quotients. Together: `GK = GR`.
-/
import proofs.«419303_j30477087932642_3_alg».proof.Proof.Spec
import Mathlib.Analysis.Complex.Exponential
import Mathlib.Algebra.BigOperators.Fin
import Mathlib.Algebra.BigOperators.Field
import Mathlib.Data.Finset.Lattice.Fold

noncomputable section

namespace Cert.Attn

/-! ## The two tiles cover the keys -/

/-- Every key row lies in the first tile or in the second. -/
theorem jx_cases (j : Fin 2048) : (∃ r, j = jx 0 r) ∨ (∃ r, j = jx 1 r) := by
  by_cases h : j.val < 1024
  · exact Or.inl ⟨⟨j.val, h⟩, Fin.ext (by simp [jx])⟩
  · refine Or.inr ⟨⟨j.val - 1024, by have := j.isLt; omega⟩, Fin.ext ?_⟩
    simp only [jx, Fin.val_one]
    omega

/-- A sum over the 2048 keys is the sum of the two tile sums. -/
theorem sum_tiles (f : Fin 2048 → ℝ) : ∑ j, f j = ∑ r, f (jx 0 r) + ∑ r, f (jx 1 r) := by
  have h := Fin.sum_univ_add (a := 1024) (b := 1024) (f : Fin (1024 + 1024) → ℝ)
  have e0 : ∀ r : Fin 1024, (Fin.castAdd 1024 r : Fin (1024 + 1024)) = jx 0 r := fun r =>
    Fin.ext (by simp [jx])
  have e1 : ∀ r : Fin 1024, (Fin.natAdd 1024 r : Fin (1024 + 1024)) = jx 1 r := fun r =>
    Fin.ext (by simp only [jx, Fin.val_natAdd, Fin.val_one])
  simp only [e0, e1] at h
  exact h

/-- The maximum over the 2048 keys is the larger of the two tile maxima. -/
theorem sup_tiles (f : Fin 2048 → ℝ) :
    Finset.univ.sup' Finset.univ_nonempty f =
      max (Finset.univ.sup' Finset.univ_nonempty fun r => f (jx 0 r))
        (Finset.univ.sup' Finset.univ_nonempty fun r => f (jx 1 r)) := by
  apply le_antisymm
  · apply Finset.sup'_le
    intro j _
    rcases jx_cases j with ⟨r, rfl⟩ | ⟨r, rfl⟩
    · exact le_max_of_le_left (Finset.le_sup' (fun r => f (jx 0 r)) (Finset.mem_univ r))
    · exact le_max_of_le_right (Finset.le_sup' (fun r => f (jx 1 r)) (Finset.mem_univ r))
  · apply max_le
    · apply Finset.sup'_le
      intro r _
      exact Finset.le_sup' f (Finset.mem_univ (jx 0 r))
    · apply Finset.sup'_le
      intro r _
      exact Finset.le_sup' f (Finset.mem_univ (jx 1 r))

/-! ## Rescaling by the change of maximum -/

/-- Shifting by `a` and then rescaling from `a` to `b` is shifting by `b`. -/
theorem exp_rescale (a b c : ℝ) : Real.exp (a - b) * Real.exp (c - a) = Real.exp (c - b) := by
  rw [← Real.exp_add]
  congr 1
  ring

/-- The online accumulation of a weighted sum of shifted exponentials over the two tiles: the first tile's sum,
    shifted by its own maximum `m0` and rescaled to the overall maximum, plus the second tile's sum, is the full
    sum shifted by the overall maximum. -/
theorem online_sum (s v : Fin 2048 → ℝ) (m0 m1 : ℝ) :
    Real.exp (m0 - m1) * (∑ r, Real.exp (s (jx 0 r) - m0) * v (jx 0 r))
        + ∑ r, Real.exp (s (jx 1 r) - m1) * v (jx 1 r)
      = ∑ j, Real.exp (s j - m1) * v j := by
  rw [sum_tiles (fun j => Real.exp (s j - m1) * v j), Finset.mul_sum]
  congr 1
  apply Finset.sum_congr rfl
  intro r _
  rw [← mul_assoc, exp_rescale]

/-- The same without weights. -/
theorem online_sum_one (s : Fin 2048 → ℝ) (m0 m1 : ℝ) :
    Real.exp (m0 - m1) * (∑ r, Real.exp (s (jx 0 r) - m0)) + ∑ r, Real.exp (s (jx 1 r) - m1)
      = ∑ j, Real.exp (s j - m1) := by
  have h := online_sum s (fun _ => 1) m0 m1
  simpa only [mul_one] using h

/-! ## The two forms of one row -/

variable (x : Fin 4 → Fin 2048 → Fin 1024 → ℝ) (mask : Fin 4 → Fin 2048 → Fin 2048 → BitVec 32)
  (Wqk Wvc : Fin 1024 → Fin 1024 → ℝ)

/-- The factor 1/32 applied to the query vector first, or to the finished inner product: the same score. -/
theorem sK_eq_sR (b : Fin 4) (n j : Fin 2048) : sK x mask Wqk b n j = sR x mask Wqk b n j := by
  unfold sK sR
  split_ifs
  · rfl
  · rw [Finset.sum_div]
    apply Finset.sum_congr rfl
    intro d _
    ring

/-- The maximum after the second tile is the row maximum. -/
theorem m1K_eq_mR (b : Fin 4) (n : Fin 2048) : m1K x mask Wqk b n = mR x mask Wqk b n := by
  unfold m1K m0K mR
  rw [sup_tiles (sR x mask Wqk b n)]
  simp only [sK_eq_sR]

/-- The sum of exponentials after the second tile is the row sum. -/
theorem l1K_eq_lR (b : Fin 4) (n : Fin 2048) : l1K x mask Wqk b n = lR x mask Wqk b n := by
  unfold l1K l0K lR
  rw [online_sum_one (sK x mask Wqk b n), m1K_eq_mR]
  simp only [sK_eq_sR]

/-- The weighted sum of key rows after the second tile is the full weighted sum, shifted by the row maximum. -/
theorem a1K_eq (b : Fin 4) (n : Fin 2048) (d : Fin 1024) :
    a1K x mask Wqk b n d = ∑ j, Real.exp (sR x mask Wqk b n j - mR x mask Wqk b n) * x b j d := by
  unfold a1K a0K
  rw [online_sum (sK x mask Wqk b n) (fun j => x b j d), m1K_eq_mR]
  simp only [sK_eq_sR]

/-- The row sum of the shifted exponentials is positive. -/
theorem lR_pos (b : Fin 4) (n : Fin 2048) : 0 < lR x mask Wqk b n := by
  unfold lR
  exact Finset.sum_pos (fun j _ => Real.exp_pos _) Finset.univ_nonempty

/-- The quotient taken once at the end is the softmax-weighted sum of the key rows. -/
theorem a1K_div_l1K (b : Fin 4) (n : Fin 2048) (d : Fin 1024) :
    a1K x mask Wqk b n d / l1K x mask Wqk b n = attR x mask Wqk b n d := by
  rw [a1K_eq, l1K_eq_lR, Finset.sum_div]
  unfold attR
  apply Finset.sum_congr rfl
  intro j _
  rw [div_mul_eq_mul_div]

/-- The two-tile online form and the textbook form give the same result. -/
theorem GK_eq_GR (x : Fin 4 → Fin 2048 → Fin 1024 → ℝ) (mask : Fin 4 → Fin 2048 → Fin 2048 → BitVec 32)
    (Wqk Wvc : Fin 1024 → Fin 1024 → ℝ) (b : Fin 4) (n : Fin 2048) (e : Fin 1024) :
    GK x mask Wqk Wvc b n e = GR x mask Wqk Wvc b n e := by
  unfold GK GR
  apply Finset.sum_congr rfl
  intro d _
  rw [a1K_div_l1K]

end Cert.Attn

end
-- ==== Proof.KSecond.lean ====
/-
  The second key tile's step of the online softmax at one grid point, and the result block, read at an index over
  the reals. Entering the step the running maximum, sum and weighted row sum hold the first tile's `m0K`, `l0K`,
  `a0K`; the step raises the maximum to `m1K`, rescales sum and weighted sum by `exp (m0K - m1K)` and adds the
  second tile's terms, leaving `l1K` and `a1K`. The result block is the quotient `a1K / l1K` (the sum is positive:
  the row of the maximum contributes `exp 0`) multiplied into `Wvc`: entry `(p, e)` is `GK` at query row `512·qi+p`.
-/
import proofs.«419303_j30477087932642_3_alg».proof.Proof.Gen.KernelIdeal.Skeleton
import proofs.«419303_j30477087932642_3_alg».proof.Proof.Spec
import proofs.«419303_j30477087932642_3_alg».proof.Proof.Consts
import proofs.«419303_j30477087932642_3_alg».proof.Proof.Lift
import proofs.«419303_j30477087932642_3_alg».proof.Proof.KScores
import proofs.«419303_j30477087932642_3_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Attn

namespace KSecond

/-! ## Changes of shape and the reductions along a row, read at coordinates -/

/-- A column of 512 numbers viewed as a 512 × 1 matrix reads, at `(p, 0)`, the column at `p`. -/
theorem cast_col {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A 512 × 1 matrix repeated along 1024 columns reads, at `(p, c)`, its entry `(p, 0)`. -/
theorem bcast_col {α : Type} (v : S512x1.Idx → α) (h : S512x1.Broadcasts S512x1024) (p : Fin 512) (c : Fin 1024) :
    broadcastTo S512x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The source index of a reduction along the columns: row `p`, column `r`. -/
theorem lift_row (h : S512x1024.Reduces [1] S512) (p : Fin 512) (r : Fin 1024) :
    h.lift (ix1 p) r = ix2 p r :=
  funext fun a => Fin.ext (by
    match a with
    | ⟨0, _⟩ => rfl
    | ⟨1, _⟩ => rfl)

/-- The maximum along each row, from the accumulator's value. -/
theorem rowMax_apply (src : FVec Ideal S512x1024 .f32) (acc : BitVec (FTy.bits .f32)) (h : S512x1024.Reduces [1] S512)
    (hφ : FKind.Formats .f32) (hacc : acc = FKind.maximumf.neutral .f32 hφ) (p : Fin 512) :
    multiReduction (F := Ideal) .maximumf [1] S512 src acc h hφ hacc (ix1 p)
      = (Finset.univ : Finset (Fin 1024)).fold max (Ideal.ofBits .f32 acc) (fun r => src (ix2 p r)) := by
  refine (Ideal.multiReduction_maximumf_single src acc h hφ hacc (ix1 p)).trans ?_
  refine congrArg (fun f => (Finset.univ : Finset (Fin 1024)).fold max (Ideal.ofBits .f32 acc) f) ?_
  funext r
  exact congrArg src (lift_row h p r)

/-- The sum along each row. -/
theorem rowSum_apply (src : FVec Ideal S512x1024 .f32) (acc : BitVec (FTy.bits .f32)) (h : S512x1024.Reduces [1] S512)
    (hφ : FKind.Formats .f32) (hacc : acc = FKind.add.neutral .f32 hφ) (p : Fin 512) :
    multiReduction (F := Ideal) .add [1] S512 src acc h hφ hacc (ix1 p) = ∑ r : Fin 1024, src (ix2 p r) := by
  refine (Ideal.multiReduction_add_single src acc h hφ hacc (ix1 p)).trans ?_
  exact Finset.sum_congr rfl fun r _ => congrArg src (lift_row h p r)

end KSecond

namespace KSecond

/-! ## The two matrix products at an entry -/

theorem lhsT_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhsT_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhsT_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhsT_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product contracting the columns of both factors, into the zero matrix: entry `(p, e)` is `∑ k, A[p,k] · B[e,k]`. -/
theorem matmulT_apply (A : FVec Ideal S512x1024 .bf16) (B : FVec Ideal S1024x1024 .bf16) (p : Fin 512) (e : Fin 1024) :
    matmul dot_S512x1024_S1024x1024_S512x1024_1_1_0_0_n_n none A B (constant (F := Ideal) S512x1024 .f32 0x00000000#32) (ix2 p e)
      = ∑ k : Fin 1024, A (ix2 p k) * B (ix2 e k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p e) ((ValueIdx.contrEquiv1 dot_S512x1024_S1024x1024_S512x1024_1_1_0_0_n_n 1024 rfl rfl).symm k) = ix2 p k := funext fun a => Fin.ext (by
    match a with
    | ⟨0, _⟩ => exact lhsT_0 _ _
    | ⟨1, _⟩ => exact (lhsT_1 _ _).trans hk)
  have er : dot_S512x1024_S1024x1024_S512x1024_1_1_0_0_n_n.rhsIdx (ix2 p e) ((ValueIdx.contrEquiv1 dot_S512x1024_S1024x1024_S512x1024_1_1_0_0_n_n 1024 rfl rfl).symm k) = ix2 e k := funext fun a => Fin.ext (by
    match a with
    | ⟨0, _⟩ => exact rhsT_0 _ _
    | ⟨1, _⟩ => exact (rhsT_1 _ _).trans hk)
  rw [el, er]

theorem lhsN_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsN_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsN_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsN_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The plain product, into the zero matrix: entry `(p, d)` is `∑ k, A[p,k] · B[k,d]`. -/
theorem matmulN_apply (A : FVec Ideal S512x1024 .bf16) (B : FVec Ideal S1024x1024 .bf16) (p : Fin 512) (d : Fin 1024) :
    matmul dot_S512x1024_S1024x1024_S512x1024_1_0_0_1_n_n none A B (constant (F := Ideal) S512x1024 .f32 0x00000000#32) (ix2 p d)
      = ∑ k : Fin 1024, A (ix2 p k) * B (ix2 k d) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p d) ((ValueIdx.contrEquiv1 dot_S512x1024_S1024x1024_S512x1024_1_0_0_1_n_n 1024 rfl rfl).symm k) = ix2 p k := funext fun a => Fin.ext (by
    match a with
    | ⟨0, _⟩ => exact lhsN_0 _ _
    | ⟨1, _⟩ => exact (lhsN_1 _ _).trans hk)
  have er : dot_S512x1024_S1024x1024_S512x1024_1_0_0_1_n_n.rhsIdx (ix2 p d) ((ValueIdx.contrEquiv1 dot_S512x1024_S1024x1024_S512x1024_1_0_0_1_n_n 1024 rfl rfl).symm k) = ix2 k d := funext fun a => Fin.ext (by
    match a with
    | ⟨0, _⟩ => exact (rhsN_0 _ _).trans hk
    | ⟨1, _⟩ => exact rhsN_1 _ _)
  rw [el, er]

end KSecond

variable (xr : Fin 4 → Fin 2048 → Fin 1024 → ℝ) (mk : Fin 4 → Fin 2048 → Fin 2048 → BitVec 32)
  (wq wv : Fin 1024 → Fin 1024 → ℝ) (b : Fin 4) (qi : Fin 4)

section Step

variable (x4 : Vec Ideal S1x1024x1024 .bf16) (s9 : Vec Ideal S512x1024 .bf16) (x5 : Vec Ideal S1x512x1024 .i32)
  (s10 s11 : Vec Ideal S512x1 .f32) (s12 : Vec Ideal S512x1024 .f32)
  (h4 : ∀ (r : Fin 1024) (d : Fin 1024), x4 (ix3 (0 : Fin 1) r d) = ((xr b (jx 1 r) d : ℝ) : EReal))
  (h9 : ∀ (p : Fin 512) (d : Fin 1024), s9 (ix2 p d) = ((qR xr wq b (nx qi p) d * (1 / 32) : ℝ) : EReal))
  (h5 : ∀ (p : Fin 512) (r : Fin 1024), x5 (ix3 (0 : Fin 1) p r) = mk b (nx qi p) (jx 1 r))
  (h10 : ∀ (p : Fin 512), s10 (ix2 p (0 : Fin 1)) = ((m0K xr mk wq b (nx qi p) : ℝ) : EReal))
  (h11 : ∀ (p : Fin 512), s11 (ix2 p (0 : Fin 1)) = ((l0K xr mk wq b (nx qi p) : ℝ) : EReal))
  (h12 : ∀ (p : Fin 512) (d : Fin 1024), s12 (ix2 p d) = ((a0K xr mk wq b (nx qi p) d : ℝ) : EReal))

namespace KSecond

include h4 h9 h5 h10 in
/-- The new running maximum: the larger of the first tile's maximum and the second tile's row maximum. -/
theorem pay10_apply (p : Fin 512) :
    k0_pay10 (F := Ideal) x4 s9 x5 s10 (ix2 p (0 : Fin 1)) = ((m1K xr mk wq b (nx qi p) : ℝ) : EReal) := by
  unfold k0_pay10
  simp only []
  rw [maximumf_apply, cast_col]
  refine (congrArg (max (s10 (ix2 p (0 : Fin 1)))) (rowMax_apply _ _ _ _ _ p)).trans ?_
  rw [h10 p, ofBits_negInf]
  simp only [pay9_apply xr mk wq b qi 1 x4 s9 x5 h4 h9 h5]
  rw [fold_max_coe, max_coe]
  rfl

include h4 h9 h5 h10 in
/-- The rescaling factor of what the first tile left: `exp (m0K - m1K)`. -/
theorem pay11_apply (p : Fin 512) :
    k0_pay11 (F := Ideal) x4 s9 x5 s10 s10 (ix2 p (0 : Fin 1))
      = ((Real.exp (m0K xr mk wq b (nx qi p) - m1K xr mk wq b (nx qi p)) : ℝ) : EReal) := by
  unfold k0_pay11
  show Ideal.exp (s10 (ix2 p (0 : Fin 1)) - k0_pay10 (F := Ideal) x4 s9 x5 s10 (ix2 p (0 : Fin 1))) = _
  rw [h10 p, pay10_apply xr mk wq b qi x4 s9 x5 s10 h4 h9 h5 h10 p, ← EReal.coe_sub, exp_coe]

include h4 h9 h5 h10 in
/-- The second tile's shifted exponentials: `exp (s - m1K)`. -/
theorem pay12_apply (p : Fin 512) (r : Fin 1024) :
    k0_pay12 (F := Ideal) x4 s9 x5 s10 (ix2 p r)
      = ((Real.exp (sK xr mk wq b (nx qi p) (jx 1 r) - m1K xr mk wq b (nx qi p)) : ℝ) : EReal) := by
  unfold k0_pay12
  show Ideal.exp (k0_pay9 (F := Ideal) x4 s9 x5 (ix2 p r)
    - broadcastTo S512x1024 (k0_pay10 (F := Ideal) x4 s9 x5 s10) Facts₀.broadcasts_S512x1_S512x1024 (ix2 p r)) = _
  rw [bcast_col, pay9_apply xr mk wq b qi 1 x4 s9 x5 h4 h9 h5 p r,
    pay10_apply xr mk wq b qi x4 s9 x5 s10 h4 h9 h5 h10 p, ← EReal.coe_sub, exp_coe]

include h4 h9 h5 h10 in
/-- The same numbers as the left factor of the weighted row sum (a change of float format is the identity). -/
theorem pay14_apply (p : Fin 512) (r : Fin 1024) :
    k0_pay14 (F := Ideal) x4 s9 x5 s10 (ix2 p r)
      = ((Real.exp (sK xr mk wq b (nx qi p) (jx 1 r) - m1K xr mk wq b (nx qi p)) : ℝ) : EReal) :=
  pay12_apply xr mk wq b qi x4 s9 x5 s10 h4 h9 h5 h10 p r

end KSecond

open KSecond

include h4 h9 h5 h10 in
/-- The running maximum after the second tile. -/
theorem second_m (p : Fin 512) :
    k0_pay2 (F := Ideal) (k0_pay10 x4 s9 x5 s10) (ix2 p (0 : Fin 1)) = ((m1K xr mk wq b (nx qi p) : ℝ) : EReal) := by
  unfold k0_pay2
  rw [shapeCast_self]
  exact pay10_apply xr mk wq b qi x4 s9 x5 s10 h4 h9 h5 h10 p

include h4 h9 h5 h10 h11 in
/-- The running sum after the second tile. -/
theorem second_l (p : Fin 512) :
    k0_pay13 (F := Ideal) x4 s9 x5 s10 s10 s11 (ix2 p (0 : Fin 1)) = ((l1K xr mk wq b (nx qi p) : ℝ) : EReal) := by
  unfold k0_pay13
  simp only []
  rw [shapeCast_self, addf_apply, mulf_apply, cast_col]
  refine (congrArg (fun t => k0_pay11 (F := Ideal) x4 s9 x5 s10 s10 (ix2 p (0 : Fin 1)) * s11 (ix2 p (0 : Fin 1)) + t)
    (rowSum_apply _ _ _ _ _ p)).trans ?_
  rw [pay11_apply xr mk wq b qi x4 s9 x5 s10 h4 h9 h5 h10 p, h11 p]
  simp only [pay12_apply xr mk wq b qi x4 s9 x5 s10 h4 h9 h5 h10]
  rw [← coe_sum, ← EReal.coe_mul, ← EReal.coe_add]
  rfl

include h4 h9 h5 h10 h12 in
/-- The running weighted row sum after the second tile. -/
theorem second_acc (p : Fin 512) (d : Fin 1024) :
    k0_pay1 (F := Ideal) (k0_pay8 x4) (k0_pay11 x4 s9 x5 s10 s10) (k0_pay14 x4 s9 x5 s10) s12 (ix2 p d)
      = ((a1K xr mk wq b (nx qi p) d : ℝ) : EReal) := by
  unfold k0_pay1
  rw [shapeCast_self, addf_apply, mulf_apply, bcast_col, matmulN_apply,
    pay11_apply xr mk wq b qi x4 s9 x5 s10 h4 h9 h5 h10 p, h12 p d]
  simp only [pay14_apply xr mk wq b qi x4 s9 x5 s10 h4 h9 h5 h10, pay8_apply xr b 1 x4 h4]
  simp only [← EReal.coe_mul]
  rw [← coe_sum, ← EReal.coe_add]
  rfl

end Step

open KSecond in
/-- The result block: the quotient of the weighted row sum by the sum, multiplied into `Wvc`. -/
theorem out_apply (acc : Vec Ideal S512x1024 .f32) (l : Vec Ideal S512x1 .f32) (x7 : Vec Ideal S1024x1024 .bf16)
    (hacc : ∀ (p : Fin 512) (d : Fin 1024), acc (ix2 p d) = ((a1K xr mk wq b (nx qi p) d : ℝ) : EReal))
    (hl : ∀ (p : Fin 512), l (ix2 p (0 : Fin 1)) = ((l1K xr mk wq b (nx qi p) : ℝ) : EReal))
    (h7 : ∀ (e d : Fin 1024), x7 (ix2 e d) = ((wv e d : ℝ) : EReal))
    (p : Fin 512) (e : Fin 1024) :
    k0_pay3 (F := Ideal) acc l x7 (ix3 (0 : Fin 1) p e) = ((GK xr mk wq wv b (nx qi p) e : ℝ) : EReal) := by
  have hpos : l1K xr mk wq b (nx qi p) ≠ 0 := by
    rw [l1K_eq_lR]
    exact ne_of_gt (lR_pos xr mk wq b (nx qi p))
  unfold k0_pay3
  rw [shapeCast_ab_1ab_apply, matmulT_apply]
  have hterm : ∀ k : Fin 1024,
      truncf (F := Ideal) .bf16 (divf acc (broadcastTo S512x1024 l Facts₀.broadcasts_S512x1_S512x1024)) Facts₀.bitsLt_bf16_f32 (ix2 p k)
          * shapeCast S1024x1024 x7 Facts₀.shapeCasts_S1024x1024_S1024x1024 (ix2 e k)
        = ((a1K xr mk wq b (nx qi p) k / l1K xr mk wq b (nx qi p) * wv e k : ℝ) : EReal) := by
    intro k
    rw [truncf_apply, divf_apply, bcast_col, hacc p k, hl p, div_coe_coe _ _ hpos, shapeCast_self, h7 e k, ← EReal.coe_mul]
  simp only [hterm]
  rw [← coe_sum]
  rfl

end Cert.KernelIdeal.Val

end
-- ==== Proof.KI.Final.lean ====
/-
  The attention kernel's result array after the run, read at an index over the reals: for real-valued inputs,
  entry `(b, n, e)` of the result is the two-tile online form `GK` of Proof/Spec.lean. The result array is written
  back block by block at the odd grid points; the odd point of batch `b` and query tile `qi` follows the even point
  of the same batch and tile, so the block it writes is the second online-softmax step applied to the first step's
  outcome on the two key tiles' rows, then the output projection; and the 16 written blocks tile the array.
-/
import proofs.«419303_j30477087932642_3_alg».proof.Proof.KI.Pieces
import proofs.«419303_j30477087932642_3_alg».proof.Proof.KI.Blocks
import proofs.«419303_j30477087932642_3_alg».proof.Proof.KFirst
import proofs.«419303_j30477087932642_3_alg».proof.Proof.KSecond
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Attn

/-! ## One written block, from the blocks the two points were given -/

open Cert.KernelIdeal.Val in
/-- The result block of a query tile: the first online step on the first key tile from the initial running values,
    the second step on the second key tile from the first step's outcome, the quotient and the output projection.
    Entry `(p, e)` is `GK` at query row `512·qi + p`. -/
theorem block_value (xr : Fin 4 → Fin 2048 → Fin 1024 → ℝ) (mk : Fin 4 → Fin 2048 → Fin 2048 → BitVec 32)
    (wq wv : Fin 1024 → Fin 1024 → ℝ) (b qi : Fin 4)
    (X0 : Vec Ideal S1x512x1024 .bf16) (K0 K1 : Vec Ideal S1x1024x1024 .bf16) (M0 M1 : Vec Ideal S1x512x1024 .i32)
    (W3 W4 : Vec Ideal S1024x1024 .bf16)
    (hX0 : ∀ (p : Fin 512) (d : Fin 1024), X0 (ix3 (0 : Fin 1) p d) = ((xr b (nx qi p) d : ℝ) : EReal))
    (hK0 : ∀ (r d : Fin 1024), K0 (ix3 (0 : Fin 1) r d) = ((xr b (jx 0 r) d : ℝ) : EReal))
    (hK1 : ∀ (r d : Fin 1024), K1 (ix3 (0 : Fin 1) r d) = ((xr b (jx 1 r) d : ℝ) : EReal))
    (hM0 : ∀ (p : Fin 512) (r : Fin 1024), M0 (ix3 (0 : Fin 1) p r) = mk b (nx qi p) (jx 0 r))
    (hM1 : ∀ (p : Fin 512) (r : Fin 1024), M1 (ix3 (0 : Fin 1) p r) = mk b (nx qi p) (jx 1 r))
    (hW3 : ∀ (e d : Fin 1024), W3 (ix2 e d) = ((wq e d : ℝ) : EReal))
    (hW4 : ∀ (e d : Fin 1024), W4 (ix2 e d) = ((wv e d : ℝ) : EReal))
    (p : Fin 512) (e : Fin 1024) :
    k0_pay3 (F := Ideal)
        (k0_pay1 (k0_pay8 K1)
          (k0_pay11 K1 (k0_pay4 X0 W3) M1 (k0_pay2 (k0_pay10 K0 (k0_pay4 X0 W3) M0 (k0_pay5 (F := Ideal))))
            (k0_pay2 (k0_pay10 K0 (k0_pay4 X0 W3) M0 (k0_pay5 (F := Ideal)))))
          (k0_pay14 K1 (k0_pay4 X0 W3) M1 (k0_pay2 (k0_pay10 K0 (k0_pay4 X0 W3) M0 (k0_pay5 (F := Ideal)))))
          (k0_pay1 (k0_pay8 K0) (k0_pay11 K0 (k0_pay4 X0 W3) M0 (k0_pay5 (F := Ideal)) (k0_pay5 (F := Ideal)))
            (k0_pay14 K0 (k0_pay4 X0 W3) M0 (k0_pay5 (F := Ideal))) (k0_pay7 (F := Ideal))))
        (k0_pay13 K1 (k0_pay4 X0 W3) M1 (k0_pay2 (k0_pay10 K0 (k0_pay4 X0 W3) M0 (k0_pay5 (F := Ideal))))
          (k0_pay2 (k0_pay10 K0 (k0_pay4 X0 W3) M0 (k0_pay5 (F := Ideal))))
          (k0_pay13 K0 (k0_pay4 X0 W3) M0 (k0_pay5 (F := Ideal)) (k0_pay5 (F := Ideal)) (k0_pay6 (F := Ideal))))
        W4 (ix3 (0 : Fin 1) p e)
      = ((GK xr mk wq wv b (nx qi p) e : ℝ) : EReal) := by
  have h9 := pay4_apply xr wq b qi X0 W3 hX0 hW3
  have h10 := first_m xr mk wq b qi K0 (k0_pay4 X0 W3) M0 hK0 h9 hM0
  have h11 := first_l xr mk wq b qi K0 (k0_pay4 X0 W3) M0 hK0 h9 hM0
  have h12 := first_acc xr mk wq b qi K0 (k0_pay4 X0 W3) M0 hK0 h9 hM0
  exact out_apply xr mk wq wv b qi _ _ W4
    (second_acc xr mk wq b qi K1 (k0_pay4 X0 W3) M1 _ _ hK1 h9 hM1 h10 h12)
    (second_l xr mk wq b qi K1 (k0_pay4 X0 W3) M1 _ _ hK1 h9 hM1 h10 h11) hW4 p e

/-! ## The blocks the result window writes back -/

/-- The result window's block index at point `t`: batch `t / 8`, query tile `(t / 2) mod 4`, the whole width. -/
theorem idx0_5 : ∀ t : Fin cfg0.N, win0_5.index t (0 : Fin 3) = t.val / 8 ∧ win0_5.index t (1 : Fin 3) = t.val / 2 % 4
    ∧ win0_5.index t (2 : Fin 3) = 0 :=
  (by decide +kernel : ∀ t : Fin grid0.N, _)

/-- Entry `(0, p, e)` of the block written at point `t` is entry `(b, 512·qi + p, e)` of the result array. -/
theorem emb0_5 (t : Fin cfg0.N) (p : Fin 512) (e : Fin 1024) :
    ((cfg0.win 5).blk t).view.emb (ix3 (0 : Fin 1) p e) = ix3 (bOf t) (nx (qOf t) p) e := by
  obtain ⟨e0, e1, e2⟩ := idx0_5 t
  refine funext fun a => Fin.ext ?_
  match a with
  | ⟨0, _⟩ => show win0_5.index t (0 : Fin 3) * 1 + 1 * (0 : Fin 1).val = t.val / 8; rw [e0]; show t.val / 8 * 1 + 1 * 0 = t.val / 8; omega
  | ⟨1, _⟩ => show win0_5.index t (1 : Fin 3) * 512 + 1 * p.val = (t.val / 2 % 4) * 512 + p.val; rw [e1]; omega
  | ⟨2, _⟩ => show win0_5.index t (2 : Fin 3) * 1024 + 1 * e.val = e.val; rw [e2]; omega

/-- An odd point and the point before it have the same batch … -/
theorem bOf_pred (t t' : Fin cfg0.N) (h : t'.val + 1 = t.val) (h1 : t.val % 2 = 1) : bOf t' = bOf t :=
  Fin.ext (by show t'.val / 8 = t.val / 8; omega)
/-- … and the same query tile. -/
theorem qOf_pred (t t' : Fin cfg0.N) (h : t'.val + 1 = t.val) (h1 : t.val % 2 = 1) : qOf t' = qOf t :=
  Fin.ext (by show t'.val / 2 % 4 = t.val / 2 % 4; omega)
/-- An odd point is on the second key tile, an even point on the first. -/
theorem kOf_odd (t : Fin cfg0.N) (h1 : t.val % 2 = 1) : kOf t = (1 : Fin 2) := Fin.ext (by show t.val % 2 = 1; exact h1)
theorem kOf_even (t : Fin cfg0.N) (h0 : t.val % 2 = 0) : kOf t = (0 : Fin 2) := Fin.ext (by show t.val % 2 = 0; exact h0)

section Frame

variable (m : (ℓ : Loc nD τ sig) → Buf (Elt Ideal) ℓ) (c : Dev nD)
  (xr : Fin 4 → Fin 2048 → Fin 1024 → ℝ) (wq wv : Fin 1024 → Fin 1024 → ℝ)

/-- The mask as the launch finds it, by coordinates. -/
abbrev mkOf : Fin 4 → Fin 2048 → Fin 2048 → BitVec 32 := fun b n j => m ((c : Thread nD τ).loc main_arg1) (ix3 b n j)

/-- The whole result array: the online form at every index. -/
def G : Buf (Elt Ideal) ((cfg0.win 5).arr.view.loc (c : Thread nD τ)) :=
  fun (i : S4x2048x1024.Idx) =>
    ((GK xr (mkOf m c) wq wv ⟨(i 0).val, (i 0).isLt⟩ ⟨(i 1).val, (i 1).isLt⟩ ⟨(i 2).val, (i 2).isLt⟩ : ℝ) : EReal)

theorem G_apply (b : Fin 4) (n : Fin 2048) (e : Fin 1024) :
    G m c xr wq wv (ix3 b n e) = ((GK xr (mkOf m c) wq wv b n e : ℝ) : EReal) := rfl

variable (hx : ∀ b n d, m ((c : Thread nD τ).loc main_arg0) (ix3 b n d) = ((xr b n d : ℝ) : EReal))
    (hq : ∀ e d, m ((c : Thread nD τ).loc main_arg2) (ix2 e d) = ((wq e d : ℝ) : EReal))
    (hv : ∀ e d, m ((c : Thread nD τ).loc main_arg3) (ix2 e d) = ((wv e d : ℝ) : EReal))

include hx hq hv in
/-- What an odd point writes back is its block of the whole result array. -/
theorem flushed_eq (t : Fin cfg0.N) (hf : (cfg0.win 5).flush t = true) :
    (dats (F := Ideal) m 0 c).flushed 5 t = ((cfg0.win 5).blk t).view.read (Elt Ideal) (G m c xr wq wv) := by
  have h1 : t.val % 2 = 1 := (flush0_5 t).mp hf
  have h0 : ¬t.val % 2 = 0 := by omega
  have hlt : t.val - 1 < cfg0.N := Nat.lt_of_le_of_lt (Nat.sub_le _ _) t.isLt
  have hs : (⟨t.val - 1, hlt⟩ : Fin cfg0.N).val + 1 = t.val := by show t.val - 1 + 1 = t.val; omega
  have h0' : (⟨t.val - 1, hlt⟩ : Fin cfg0.N).val % 2 = 0 := by show (t.val - 1) % 2 = 0; omega
  have hb := bOf_pred t ⟨t.val - 1, hlt⟩ hs h1
  have hq' := qOf_pred t ⟨t.val - 1, hlt⟩ hs h1
  have hk := kOf_odd t h1
  have hk' := kOf_even ⟨t.val - 1, hlt⟩ h0'
  have eA : outsAt0 m c (t.val - 1) hlt = stA m c ⟨t.val - 1, hlt⟩ h0' := outsAt0_A m c ⟨t.val - 1, hlt⟩ h0'
  show (cfg0.win 5).cut (grid0.coords t) ((dats m 0 c).after 5 t) = _
  rw [after0_5, outsAt0_B m c t h0, eA]
  dsimp only [stB, stA]
  rw [outB_5_eq, soutA_0_eq, soutA_1_eq, soutA_2_eq, soutA_3_eq]
  refine funext fun (y : S1x512x1024.Idx) => ?_
  obtain ⟨p, e, rfl⟩ : ∃ (p : Fin 512) (e : Fin 1024), y = ix3 (0 : Fin 1) p e :=
    ⟨y 1, y 2, funext fun a => by
      match a with
      | ⟨0, h⟩ => exact Fin.ext (by have h1 : (y ⟨0, h⟩).val < 1 := (y ⟨0, h⟩).isLt; show (y ⟨0, h⟩).val = 0; omega)
      | ⟨1, _⟩ => rfl
      | ⟨2, _⟩ => rfl⟩
  show k0_pay3 (F := Ideal) _ _ _ (ix3 (0 : Fin 1) p e) = G m c xr wq wv (((cfg0.win 5).blk t).view.emb (ix3 (0 : Fin 1) p e))
  rw [emb0_5, G_apply]
  refine block_value xr (mkOf m c) wq wv (bOf t) (qOf t)
    (iblk m c 0 ⟨t.val - 1, hlt⟩) (iblk m c 1 ⟨t.val - 1, hlt⟩) (iblk m c 1 t) (iblk m c 2 ⟨t.val - 1, hlt⟩) (iblk m c 2 t)
    (iblk m c 3 ⟨t.val - 1, hlt⟩) (iblk m c 4 t) ?_ ?_ ?_ ?_ ?_ ?_ ?_ p e
  · intro p d; rw [iblk0_apply, hb, hq', V_main_v0, hx]
  · intro r d; rw [iblk1_apply, hb, hk', V_main_v0, hx]
  · intro r d; rw [iblk1_apply, hk, V_main_v0, hx]
  · intro p r; rw [iblk2_apply, hb, hq', hk', V_main_arg1]
  · intro p r; rw [iblk2_apply, hk, V_main_arg1]
  · intro e d; rw [iblk3_apply, V_main_v1, hq]
  · intro e d; rw [iblk4_apply, V_main_v2, hv]

end Frame

/-- The kernel's result array after the last write-back, at real-valued inputs, is the online form `GK`. -/
theorem kernel_value (m : (ℓ : Loc nD τ sig) → Buf (Elt Ideal) ℓ) (c : Dev nD)
    (xr : Fin 4 → Fin 2048 → Fin 1024 → ℝ) (wq wv : Fin 1024 → Fin 1024 → ℝ)
    (hx : ∀ b n d, m ((c : Thread nD τ).loc main_arg0) (ix3 b n d) = ((xr b n d : ℝ) : EReal))
    (hq : ∀ e d, m ((c : Thread nD τ).loc main_arg2) (ix2 e d) = ((wq e d : ℝ) : EReal))
    (hv : ∀ e d, m ((c : Thread nD τ).loc main_arg3) (ix2 e d) = ((wv e d : ℝ) : EReal))
    (b : Fin 4) (n : Fin 2048) (e : Fin 1024) :
    (dats (F := Ideal) m 0 c).arrAt 5 cfg0.N (ix3 b n e)
      = ((GK xr (fun b n j => m ((c : Thread nD τ).loc main_arg1) (ix3 b n j)) wq wv b n e : ℝ) : EReal) := by
  have hN : cfg0.N = 32 := N_0
  have hb4 : b.val < 4 := b.isLt
  have hn : n.val < 2048 := n.isLt
  obtain ⟨t, ht⟩ : ∃ t : Fin cfg0.N, t.val = 8 * b.val + 2 * (n.val / 512) + 1 := ⟨⟨8 * b.val + 2 * (n.val / 512) + 1, by rw [hN]; omega⟩, rfl⟩
  have hf : (cfg0.win 5).flush t = true := (flush0_5 t).mpr (by omega)
  have hbt : bOf t = b := Fin.ext (by show t.val / 8 = b.val; omega)
  have hnt : nx (qOf t) (⟨n.val % 512, by omega⟩ : Fin 512) = n := Fin.ext (by show t.val / 2 % 4 * 512 + n.val % 512 = n.val; omega)
  have hi : ((cfg0.win 5).blk t).view.emb (ix3 (0 : Fin 1) (⟨n.val % 512, by omega⟩ : Fin 512) e) = ix3 b n e := by
    rw [emb0_5, hbt, hnt]
  have hmem : ix3 b n e ∈ ((cfg0.win 5).blk t).view.set := by
    rw [← hi]; exact View.emb_mem_set _ _
  exact ((dats (F := Ideal) m 0 c).arrAt_apply_of_mem 5 (G m c xr wq wv) (flushed_eq m c xr wq wv hx hq hv) cfg0.N t
    (ix3 b n e) t.isLt hf hmem).trans (G_apply m c xr wq wv b n e)

end Cert.KernelIdeal.Hand

end
-- ==== Proof.RefValue.lean ====
/-
  The reference program's result, read at an index over the reals: under real-valued inputs, the plain attention
  layer the reference computes is the textbook form `GR` of Proof/Spec.lean.

  The program is read one operation at a time, innermost first. Each stage is an array of extended reals; under the
  hypothesis that the inputs `x`, `Wqk`, `Wvc` are real-valued, each stage at an index is a real number, namely the
  matching part of the textbook form: the query vector `qR`; the number 32 as 1024 to the power one half; the inner
  product of the query with key row `j` divided by 32; the masked score `sR`; the row maximum `mR` (a fold of the
  maximum from minus infinity over the 2048 keys, then one more maximum against minus infinity, which changes
  nothing); the shifted exponential; the row sum `lR` of those (positive, a sum of exponentials, so the quotient by it
  is the real quotient); the softmax weight; the attended vector `attR`; and the output projection `GR`.
  Sums of reals are carried into the extended reals term by term, products and differences likewise.
-/
import proofs.«419303_j30477087932642_3_alg».proof.Proof.Gen.ReferenceIdeal.Read
import proofs.«419303_j30477087932642_3_alg».proof.Proof.Spec
import proofs.«419303_j30477087932642_3_alg».proof.Proof.Consts
import proofs.«419303_j30477087932642_3_alg».proof.Proof.Lift
import Idealize.ShloMosaic.Lib.ValueIdx
import Idealize.ShloMosaic.PureOps.Ideal.Laws
import Idealize.ShloMosaic.PureOps.Reduce

noncomputable section

namespace Cert.Attn

open Idealize.ShloMosaic Idealize.ShloMosaic.ValueIdx Cert.ReferenceIdeal Cert.ReferenceIdeal.Gen Cert.ReferenceIdeal.Read

variable (a0 : (⟨S4x2048x1024, .f32⟩ : BufTy).Contents (Elt Ideal))
  (a1 : (⟨S4x2048x2048, .i32⟩ : BufTy).Contents (Elt Ideal))
  (a2 a3 : (⟨S1024x1024, .f32⟩ : BufTy).Contents (Elt Ideal))
  (xr : Fin 4 → Fin 2048 → Fin 1024 → ℝ) (mask : Fin 4 → Fin 2048 → Fin 2048 → BitVec 32)
  (wq wv : Fin 1024 → Fin 1024 → ℝ)
  (hx : ∀ b n d, a0 (ix3 b n d) = ((xr b n d : ℝ) : EReal))
  (hm : ∀ b n j, a1 (ix3 b n j) = mask b n j)
  (hq : ∀ e d, a2 (ix2 e d) = ((wq e d : ℝ) : EReal))
  (hv : ∀ e d, a3 (ix2 e d) = ((wv e d : ℝ) : EReal))

/-! ## The query vector -/

include hx hq in
/-- The first product: entry `e` of the query vector of row `n` is `∑ d, x[b,n,d] · Wqk[e,d]`. -/
theorem ref_q (b : Fin 4) (n : Fin 2048) (e : Fin 1024) :
    val_main_v0 (F := Ideal) a0 a2 (ix3 b n e) = ((qR xr wq b n e : ℝ) : EReal) := by
  rw [val_main_v0_apply]
  unfold qR
  rw [coe_sum]
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 e k :=
    funext fun a => Fin.ext (by match a with | ⟨0, _⟩ => rfl | ⟨1, _⟩ => rfl)
  rw [el, er, hx, hq, ← EReal.coe_mul]

/-! ## The scale -/

/-- The divisor: 1024 to the power one half, the number 32. -/
theorem ref_scale (i : S_.Idx) : val_main_v1 (F := Ideal) i = ((32 : ℝ) : EReal) := by
  rw [val_main_v1_apply, val_main_cst_apply, val_main_cst_0_apply]
  simp only [Ideal.hostPowf_def, Ideal.ofBits_def]
  rw [ofBits_1024, ofBits_half, pow_1024_half]

/-! ## The scores -/

include hx hq in
/-- The unmasked score of key row `j`: the inner product of the query vector with that row, divided by 32. -/
theorem ref_scaled (b : Fin 4) (n j : Fin 2048) :
    val_main_v4 (F := Ideal) a0 a2 (ix3 b n j) = (((∑ d, qR xr wq b n d * xr b j d) / 32 : ℝ) : EReal) := by
  rw [val_main_v4_apply, val_main_v3_apply, ref_scale, val_main_v2_apply]
  have h : ∑ k : Fin 1024, val_main_v0 (F := Ideal) a0 a2 (lidx_main_v2 (ix3 b n j) k) * a0 (ridx_main_v2 (ix3 b n j) k)
      = ((∑ d, qR xr wq b n d * xr b j d : ℝ) : EReal) := by
    rw [coe_sum]
    refine Finset.sum_congr rfl fun k _ => ?_
    have el : lidx_main_v2 (ix3 b n j) k = ix3 b n k :=
      funext fun a => Fin.ext (by match a with | ⟨0, _⟩ => rfl | ⟨1, _⟩ => rfl | ⟨2, _⟩ => rfl)
    have er : ridx_main_v2 (ix3 b n j) k = ix3 b j k :=
      funext fun a => Fin.ext (by match a with | ⟨0, _⟩ => rfl | ⟨1, _⟩ => rfl | ⟨2, _⟩ => rfl)
    rw [el, er, ref_q a0 a2 xr wq hx hq, hx, ← EReal.coe_mul]
  rw [h]
  simp only [Ideal.hostDivf_def]
  exact div_coe_coe _ _ (by norm_num)

include hx hm hq in
/-- The masked score: the fill where the mask word is zero, the scaled inner product elsewhere. -/
theorem ref_score (b : Fin 4) (n j : Fin 2048) :
    val_main_v7 (F := Ideal) a0 a1 a2 (ix3 b n j) = ((sR xr mask wq b n j : ℝ) : EReal) := by
  rw [val_main_v7_apply, val_main_v6_apply, val_main_v5_apply, val_main_c_apply, val_main_call0_v0_apply,
    val_main_cst_1_apply, ref_scaled a0 a2 xr wq hx hq, hm]
  unfold sR
  by_cases h : mask b n j = 0#32
  · rw [if_pos h, h]
    have hc : IntOp.cmpi .eq (0#32) (0#32) = 1#1 := by decide
    rw [hc, select_one]
    simp only [Ideal.ofBits_def]
    exact ofBits_negBig
  · rw [if_neg h]
    have hc : IntOp.cmpi .eq (mask b n j) (0#32) = 0#1 := by
      unfold IntOp.cmpi
      have hb : (mask b n j == 0#32) = false := beq_eq_false_iff_ne.mpr h
      rw [hb]
      rfl
    rw [hc, select_zero]

/-! ## The row maximum -/

/-- The key coordinate `k` put back into the reduced index (b, n) gives the index (b, n, k). -/
theorem lift_key (h : S4x2048x2048.Reduces [2] S4x2048) (b : Fin 4) (n : Fin 2048)
    (k : Fin (S4x2048x2048.size 2)) :
    h.lift (ix2 b n) k = ix3 b n (⟨k.val, k.isLt⟩ : Fin 2048) := by
  funext c; apply Fin.ext
  fin_cases c <;> rfl

include hx hm hq in
/-- The maximum reduction over the keys, from minus infinity, is the real maximum of the row's scores. -/
theorem ref_rowmax (b : Fin 4) (n : Fin 2048) :
    val_main_v8 (F := Ideal) a0 a1 a2 (ix2 b n) = ((mR xr mask wq b n : ℝ) : EReal) := by
  have hred : S4x2048x2048.Reduces [2] S4x2048 := by decide
  unfold val_main_v8
  rw [Host.reduce_eq_fold_single FloatOps.maximumf _ _ reducesTo_S4x2048x2048_S4x2048_d2 hred h_S_]
  rw [val_main_cst_2_apply]
  have hf : (val_main_v7 (F := Ideal) a0 a1 a2 ∘ hred.lift (ix2 b n))
      = fun k : Fin 2048 => ((sR xr mask wq b n k : ℝ) : EReal) := funext fun k => by
    show val_main_v7 (F := Ideal) a0 a1 a2 (hred.lift (ix2 b n) k) = _
    rw [lift_key hred b n k, ref_score a0 a1 a2 xr mask wq hx hm hq]
    rfl
  rw [hf]
  simp only [Ideal.ofBits_def]
  rw [ofBits_negInf]
  exact fold_max_coe (n := 2048) (sR xr mask wq b n)

include hx hm hq in
/-- One more maximum against minus infinity changes nothing: the stage the softmax subtracts is the row maximum. -/
theorem ref_max (b : Fin 4) (n : Fin 2048) :
    val_main_v10 (F := Ideal) a0 a1 a2 (ix2 b n) = ((mR xr mask wq b n : ℝ) : EReal) := by
  rw [val_main_v10_apply, val_main_v9_apply, val_main_cst_3_apply, ref_rowmax a0 a1 a2 xr mask wq hx hm hq]
  simp only [Ideal.maximumf_def, Ideal.ofBits_def]
  rw [ofBits_negInf, max_bot_coe]

/-! ## The exponentials and their sum -/

include hx hm hq in
/-- The shifted exponential of a score. -/
theorem ref_exp (b : Fin 4) (n j : Fin 2048) :
    val_main_v14 (F := Ideal) a0 a1 a2 (ix3 b n j)
      = ((Real.exp (sR xr mask wq b n j - mR xr mask wq b n) : ℝ) : EReal) := by
  rw [val_main_v14_apply, val_main_v13_apply, val_main_v12_apply, val_main_v11_apply]
  have e : idx_main_v11 (idx_main_v12 (ix3 b n j)) = ix2 b n :=
    funext fun a => Fin.ext (by match a with | ⟨0, _⟩ => rfl | ⟨1, _⟩ => rfl)
  rw [e, ref_max a0 a1 a2 xr mask wq hx hm hq, ref_score a0 a1 a2 xr mask wq hx hm hq]
  simp only [Ideal.hostUnary_exp_def, Ideal.subf_def]
  rw [← EReal.coe_sub, exp_coe]

include hx hm hq in
/-- The row sum of the shifted exponentials, started from zero. -/
theorem ref_sum (b : Fin 4) (n : Fin 2048) :
    val_main_v15 (F := Ideal) a0 a1 a2 (ix2 b n) = ((lR xr mask wq b n : ℝ) : EReal) := by
  rw [val_main_v15_apply, val_main_cst_4_apply]
  simp only [Ideal.ofBits_def]
  rw [ofBits_zero, zero_add]
  unfold lR
  rw [coe_sum]
  refine Finset.sum_congr rfl fun k _ => ?_
  have e : idx_main_v15 (ix2 b n) k = ix3 b n k :=
    funext fun a => Fin.ext (by match a with | ⟨0, _⟩ => rfl | ⟨1, _⟩ => rfl | ⟨2, _⟩ => rfl)
  rw [e, ref_exp a0 a1 a2 xr mask wq hx hm hq]

/-- The row sum is positive: every term is an exponential. -/
theorem ref_lR_pos (b : Fin 4) (n : Fin 2048) : 0 < lR xr mask wq b n :=
  Finset.sum_pos (fun _ _ => Real.exp_pos _) Finset.univ_nonempty

/-! ## The softmax weights, the attended vector, the projection -/

include hx hm hq in
/-- The softmax weight of key row `j`: the shifted exponential over the row sum. -/
theorem ref_soft (b : Fin 4) (n j : Fin 2048) :
    val_main_v18 (F := Ideal) a0 a1 a2 (ix3 b n j)
      = ((Real.exp (sR xr mask wq b n j - mR xr mask wq b n) / lR xr mask wq b n : ℝ) : EReal) := by
  rw [val_main_v18_apply, val_main_v17_apply, val_main_v16_apply]
  have e : idx_main_v16 (idx_main_v17 (ix3 b n j)) = ix2 b n :=
    funext fun a => Fin.ext (by match a with | ⟨0, _⟩ => rfl | ⟨1, _⟩ => rfl)
  rw [e, ref_sum a0 a1 a2 xr mask wq hx hm hq, ref_exp a0 a1 a2 xr mask wq hx hm hq]
  simp only [Ideal.hostDivf_def]
  exact div_coe_coe _ _ (ne_of_gt (ref_lR_pos xr mask wq b n))

include hx hm hq in
/-- The attended vector: the key rows weighted by the softmax weights. -/
theorem ref_att (b : Fin 4) (n : Fin 2048) (d : Fin 1024) :
    val_main_v19 (F := Ideal) a0 a1 a2 (ix3 b n d) = ((attR xr mask wq b n d : ℝ) : EReal) := by
  rw [val_main_v19_apply]
  unfold attR
  rw [coe_sum]
  refine Finset.sum_congr rfl fun k _ => ?_
  have el : lidx_main_v19 (ix3 b n d) k = ix3 b n k :=
    funext fun a => Fin.ext (by match a with | ⟨0, _⟩ => rfl | ⟨1, _⟩ => rfl | ⟨2, _⟩ => rfl)
  have er : ridx_main_v19 (ix3 b n d) k = ix3 b k d :=
    funext fun a => Fin.ext (by match a with | ⟨0, _⟩ => rfl | ⟨1, _⟩ => rfl | ⟨2, _⟩ => rfl)
  rw [el, er, ref_soft a0 a1 a2 xr mask wq hx hm hq, hx, ← EReal.coe_mul]

include hx hm hq hv in
/-- The output projection: the result over a general mask function agreeing with the mask array. -/
theorem ref_out (b : Fin 4) (n : Fin 2048) (e : Fin 1024) :
    val_main_v20 (F := Ideal) a0 a1 a2 a3 (ix3 b n e) = ((GR xr mask wq wv b n e : ℝ) : EReal) := by
  rw [val_main_v20_apply]
  unfold GR
  rw [coe_sum]
  refine Finset.sum_congr rfl fun k _ => ?_
  have el : lidx_main_v20 (ix3 b n e) k = ix3 b n k :=
    funext fun a => Fin.ext (by match a with | ⟨0, _⟩ => rfl | ⟨1, _⟩ => rfl | ⟨2, _⟩ => rfl)
  have er : ridx_main_v20 (ix3 b n e) k = ix2 e k :=
    funext fun a => Fin.ext (by match a with | ⟨0, _⟩ => rfl | ⟨1, _⟩ => rfl)
  rw [el, er, ref_att a0 a1 a2 xr mask wq hx hm hq, hv, ← EReal.coe_mul]

end Cert.Attn

namespace Cert.Attn

open Idealize.ShloMosaic

/-- The reference's result at (b, n, e), under real-valued inputs, is the textbook form at the mask array's words. -/
theorem ref_value
    (a0 : (⟨Cert.ReferenceIdeal.S4x2048x1024, .f32⟩ : BufTy).Contents (Elt Ideal))
    (a1 : (⟨Cert.ReferenceIdeal.S4x2048x2048, .i32⟩ : BufTy).Contents (Elt Ideal))
    (a2 a3 : (⟨Cert.ReferenceIdeal.S1024x1024, .f32⟩ : BufTy).Contents (Elt Ideal))
    (xr : Fin 4 → Fin 2048 → Fin 1024 → ℝ) (wq wv : Fin 1024 → Fin 1024 → ℝ)
    (hx : ∀ b n d, a0 (ValueIdx.ix3 b n d) = ((xr b n d : ℝ) : EReal))
    (hq : ∀ e d, a2 (ValueIdx.ix2 e d) = ((wq e d : ℝ) : EReal))
    (hv : ∀ e d, a3 (ValueIdx.ix2 e d) = ((wv e d : ℝ) : EReal))
    (b : Fin 4) (n : Fin 2048) (e : Fin 1024) :
    Cert.ReferenceIdeal.Read.val_main_v20 (F := Ideal) a0 a1 a2 a3 (ValueIdx.ix3 b n e)
      = ((GR xr (fun b n j => a1 (ValueIdx.ix3 b n j)) wq wv b n e : ℝ) : EReal) :=
  ref_out a0 a1 a2 a3 xr (fun b n j => a1 (ValueIdx.ix3 b n j)) wq wv hx (fun _ _ _ => rfl) hq hv b n e

end Cert.Attn

end
-- ==== Proof.Finite.lean ====
/-
  The hypothesis "every float input is finite", read back as arrays of real numbers.

  Floats are extended reals. The hypothesis is the conjunction of three statements of one form, one for each float
  array a (the activations x and the two weight matrices): every entry satisfies |a_i| < +∞, where |t| = max t (-t).
  An extended real t with max t (-t) < ⊤ is not ⊤ (then the maximum would be ⊤) and not ⊥ (then -t = ⊤), so it is
  the real number t.toReal. Hence each of the three arrays is the image of a real-valued array of the same shape,
  namely its entrywise toReal. The integer mask is not constrained.
-/
import proofs.«419303_j30477087932642_3_alg».proof.Pre_finite_inputs
import proofs.«419303_j30477087932642_3_alg».proof.Proof.Gen.Pre_finite_inputs
import Idealize.ShloMosaic.PureOps.Ideal
import Idealize.ShloMosaic.Lib.ValueIdx
import Idealize.ShloMosaic.Lib.ReduceAll

noncomputable section

namespace Cert.Attn

open Idealize.ShloMosaic Idealize.ShloMosaic.ValueIdx

/-- The scalar shape has one index. -/
instance : Subsingleton Cert.Pre_finite_inputs.S_.Idx := ⟨fun a b => funext fun d => d.elim0⟩

/-- The 32-bit pattern of +∞ denotes the top element. -/
theorem ofBits_posInf : Ideal.ofBits .f32 0x7F800000#32 = (⊤ : EReal) := by
  simp [Ideal.ofBits, Ideal.ieee]

/-- An extended real whose absolute value is below +∞ is a real number. -/
theorem coe_toReal_of_abs_lt_top (t : EReal) (h : max t (-t) < ⊤) : t = ((t.toReal : ℝ) : EReal) := by
  have h1 : t ≠ ⊤ := fun e => by simp [e] at h
  have h2 : t ≠ ⊥ := fun e => by simp [e] at h
  exact (EReal.coe_toReal h1 h2).symm

/-- One array: if the conjunction over all entries of "|a_i| < +∞" holds, every entry is a real number. -/
theorem entries_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf a)
            (broadcastInDim s ![] hb (constant Cert.Pre_finite_inputs.S_ .f32 0x7F800000#32)))
          (constantI Cert.Pre_finite_inputs.S_ 1 1#1) hr hu ix0 = 1#1)
    (i : s.Idx) : a i = (((a i).toReal : ℝ) : EReal) := by
  have e := Host.reduce_andi_all _ _ hr hu ix0 h i
  change Ideal.cmp .olt (max (a i) (-(a i))) (Ideal.ofBits .f32 0x7F800000#32) = 1#1 at e
  rw [ofBits_posInf] at e
  refine coe_toReal_of_abs_lt_top (a i) ?_
  by_contra hn
  simp [Ideal.cmp, hn] at e

/-- Every float input finite: the three float arrays are real-valued arrays. -/
theorem reals_of_finite [Cert.Pre_finite_inputs.Facts]
    (a0 : FVec Ideal Cert.Pre_finite_inputs.S4x2048x1024 .f32) (a1 : IVec Cert.Pre_finite_inputs.S4x2048x2048 32)
    (a2 a3 : FVec Ideal Cert.Pre_finite_inputs.S1024x1024 .f32)
    (h : Cert.Pre_finite_inputs.fn (F := Ideal) a0 a1 a2 a3 = (fun _ => 1#1)) :
    ∃ (xr : Fin 4 → Fin 2048 → Fin 1024 → ℝ) (wq wv : Fin 1024 → Fin 1024 → ℝ),
      (∀ b n d, a0 (ix3 b n d) = ((xr b n d : ℝ) : EReal))
      ∧ (∀ e d, a2 (ix2 e d) = ((wq e d : ℝ) : EReal))
      ∧ (∀ e d, a3 (ix2 e d) = ((wv e d : ℝ) : EReal)) := by
  have h0 := congrFun h ix0
  dsimp only [Cert.Pre_finite_inputs.fn] at h0
  obtain ⟨h01, h3⟩ := IntOp.andi_eq_one.1 h0
  obtain ⟨h1, h2⟩ := IntOp.andi_eq_one.1 h01
  exact ⟨fun b n d => (a0 (ix3 b n d)).toReal, fun e d => (a2 (ix2 e d)).toReal, fun e d => (a3 (ix2 e d)).toReal,
    fun b n d => entries_real a0 _ _ _ h1 _, fun e d => entries_real a2 _ _ _ h2 _, fun e d => entries_real a3 _ _ _ h3 _⟩

end Cert.Attn

end
-- ==== Proof.Claims.lean ====
/-
  The five claims of the certificate, assembled. Each program runs to its end and leaves its argument arrays as
  they were: for the kernel, at both readings of its floats, this is the launch's run (the arrays the launch stages
  end at their launch contents, the others bypass it); for the reference it is its run with the result dropped. The
  idealization rewrote nothing, so there is nothing to preserve. And with every float input finite, the inputs are
  real numbers; the kernel's result array is then the two-tile online form of the attention layer at every index,
  the reference's result the textbook form, and the two forms are one function.
-/
import proofs.«419303_j30477087932642_3_alg».proof.Defs
import proofs.«419303_j30477087932642_3_alg».proof.Proof.Gen.Kernel
import proofs.«419303_j30477087932642_3_alg».proof.Proof.Gen.KernelIdeal
import proofs.«419303_j30477087932642_3_alg».proof.Proof.Gen.ReferenceIdeal
import proofs.«419303_j30477087932642_3_alg».proof.Proof.Gen.Pre_finite_inputs
import proofs.«419303_j30477087932642_3_alg».proof.Proof.Gen.ReferenceIdeal.Run
import proofs.«419303_j30477087932642_3_alg».proof.Proof.Gen.ReferenceIdeal.Read
import proofs.«419303_j30477087932642_3_alg».proof.Proof.K.Launch
import proofs.«419303_j30477087932642_3_alg».proof.Proof.KI.Launch
import proofs.«419303_j30477087932642_3_alg».proof.Proof.KI.Final
import proofs.«419303_j30477087932642_3_alg».proof.Proof.RefValue
import proofs.«419303_j30477087932642_3_alg».proof.Proof.Finite
import proofs.«419303_j30477087932642_3_alg».proof.Proof.Softmax

noncomputable section

namespace Cert.Proof.Claims

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two results agree index by index: the kernel's is the online form, the reference's the textbook form, of
    the same real-valued inputs. -/
theorem algebraic : Cert.algebraic_KernelIdeal_ReferenceIdeal := by
  intro m ρ m' ρ' hpre hagree
  refine ⟨fun c => (Cert.KernelIdeal.Hand.dats (F := Ideal) m 0 c).arrAt 5 Cert.KernelIdeal.cfg0.N, ?_, ?_⟩
  · refine (θ_run Cert.KernelIdeal.defs _ _).mono (fun r h c => ?_) (Cert.KernelIdeal.Hand.run_main (F := Ideal) m ρ)
    have hf := Cert.KernelIdeal.Hand.frame (F := Ideal) m ρ
    exact ⟨(h c).1 5,
      ((h c).2 Cert.KernelIdeal.main_arg0 (Pipeline.mem_restRefs_of Cert.KernelIdeal.main_arg0 (by decide) (by decide))).trans (Cert.KernelIdeal.Hand.V_main_arg0 m c),
      ((h c).1 2).trans (((Cert.KernelIdeal.Hand.dats m 0 c).arrAt_in 2 rfl _).trans ((Cert.KernelIdeal.Hand.A_eq m c 2).trans (Cert.KernelIdeal.Hand.V_main_arg1 m c))),
      ((h c).2 Cert.KernelIdeal.main_arg2 (Pipeline.mem_restRefs_of Cert.KernelIdeal.main_arg2 (by decide) (by decide))).trans (Cert.KernelIdeal.Hand.V_main_arg2 m c),
      ((h c).2 Cert.KernelIdeal.main_arg3 (Pipeline.mem_restRefs_of Cert.KernelIdeal.main_arg3 (by decide) (by decide))).trans (Cert.KernelIdeal.Hand.V_main_arg3 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2]
    obtain ⟨xr, wq, wv, hx, hq, hv⟩ := Cert.Attn.reals_of_finite _ _ _ _ (hpre c)
    funext i
    obtain ⟨b, n, e, rfl⟩ : ∃ (b : Fin 4) (n : Fin 2048) (e : Fin 1024), i = ix3 b n e := ⟨i 0, i 1, i 2, eq_ix3 i⟩
    refine (Cert.Attn.ref_value _ _ _ _ xr wq wv hx hq hv b n e).trans ?_
    rw [← Cert.Attn.GK_eq_GR]
    exact (Cert.KernelIdeal.Hand.kernel_value m c xr wq wv hx hq hv b n e).symm

end Cert.Proof.Claims

end
-- ==== Proof.lean ====
/-
  The certificate of the fused attention kernel against its plain reference: the kernel's online softmax over two
  key tiles, with the query scaled by 1/32 beforehand and the division by the running sum taken once at the end,
  computes the same function of finite inputs as the reference's row softmax of scores divided by √1024. The five
  claims are proved in Proof/Claims.lean from the frame modules (Proof/K, Proof/KI), the kernel's value
  (Proof/KI/Final.lean), the reference's value (Proof/RefValue.lean), finiteness (Proof/Finite.lean) and the
  identity of the two forms over the reals (Proof/Softmax.lean).
-/
import proofs.«419303_j30477087932642_3_alg».proof.Defs
import proofs.«419303_j30477087932642_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
